-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S256 .f32) (main_arg5 : FVec F S256x16 .f32) (main_arg6 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x16 .f32 := Host.absf main_arg5
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x512 .f32) (main_arg1 : FVec F S512x256 .f32) (main_arg2 : FVec F S256 .f32) (main_arg3 : FVec F S256x256 .f32) (main_arg4 : FVec F S256 .f32) (main_arg5 : FVec F S256x16 .f32) (main_arg6 : FVec F S16 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩
abbrev S7x256 : Shape := ⟨2, ![7, 256]⟩
abbrev S1x256 : Shape := ⟨2, ![1, 256]⟩
abbrev S784x256 : Shape := ⟨2, ![784, 256]⟩
abbrev S1x16 : Shape := ⟨2, ![1, 16]⟩
abbrev S7x16 : Shape := ⟨2, ![7, 16]⟩
abbrev S264x16 : Shape := ⟨2, ![264, 16]⟩
abbrev S16384x16 : Shape := ⟨2, ![16384, 16]⟩
abbrev S4096x512 : Shape := ⟨2, ![4096, 512]⟩
abbrev S4096x16 : Shape := ⟨2, ![4096, 16]⟩
abbrev S8x256 : Shape := ⟨2, ![8, 256]⟩
abbrev S4096x256 : Shape := ⟨2, ![4096, 256]⟩
abbrev S8x16 : Shape := ⟨2, ![8, 16]⟩

abbrev nBuf : Space → Nat
  | .hbm => 17
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S_, .f32⟩
  | .hbm, ⟨8, _⟩ => ⟨S7x256, .f32⟩
  | .hbm, ⟨9, _⟩ => ⟨S1x256, .f32⟩
  | .hbm, ⟨10, _⟩ => ⟨S1x256, .f32⟩
  | .hbm, ⟨11, _⟩ => ⟨S784x256, .f32⟩
  | .hbm, ⟨12, _⟩ => ⟨S1x16, .f32⟩
  | .hbm, ⟨13, _⟩ => ⟨S_, .f32⟩
  | .hbm, ⟨14, _⟩ => ⟨S7x16, .f32⟩
  | .hbm, ⟨15, _⟩ => ⟨S264x16, .f32⟩
  | .hbm, ⟨16, _⟩ => ⟨S16384x16, .f32⟩
  | .local _ .vmem, ⟨0, _⟩ => ⟨S4096x512, .f32⟩
  | .local _ .vmem, ⟨1, _⟩ => ⟨S4096x512, .f32⟩
  | .local _ .vmem, ⟨2, _⟩ => ⟨S784x256, .f32⟩
  | .local _ .vmem, ⟨3, _⟩ => ⟨S264x16, .f32⟩
  | .local _ .vmem, ⟨4, _⟩ => ⟨S4096x16, .f32⟩
  | .local _ .vmem, ⟨5, _⟩ => ⟨S4096x16, .f32⟩
  | .local _ .vmem, ⟨6, _⟩ => ⟨S512x256, .f32⟩
  | .local _ .vmem, ⟨7, _⟩ => ⟨S1x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S264x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S7x256 : S_.BroadcastsInDim S7x256 (![] : Fin 0 → Fin S7x256.rank)
  shapeCasts_S256_S1x256 : S256.ShapeCasts S1x256
  concatenates_S512x256_S256x256_S1x256_S7x256_S1x256_S7x256_S784x256_d0 : Shape.Concatenates [S512x256, S256x256, S1x256, S7x256, S1x256, S7x256] S784x256 0
  shapeCasts_S16_S1x16 : S16.ShapeCasts S1x16
  bcast_S_S7x16 : S_.BroadcastsInDim S7x16 (![] : Fin 0 → Fin S7x16.rank)
  concatenates_S256x16_S1x16_S7x16_S264x16_d0 : Shape.Concatenates [S256x16, S1x16, S7x16] S264x16 0
  inb_S784x256_S256x256_512_0 : ∀ a, (![512, 0] : Fin 2 → Nat) a + S256x256.size a ≤ S784x256.size a
  h_S256x256 : 0 < S256x256.numel
  shapeCasts_S256x256_S256x256 : S256x256.ShapeCasts S256x256
  inb_S784x256_S512x256_0_0 : ∀ a, (![0, 0] : Fin 2 → Nat) a + S512x256.size a ≤ S784x256.size a
  h_S512x256 : 0 < S512x256.numel
  shapeCasts_S512x256_S512x256 : S512x256.ShapeCasts S512x256
  inb_S512x256_S512x256_0_0 : ∀ a, (![0, 0] : Fin 2 → Nat) a + S512x256.size a ≤ S512x256.size a
  inb_S784x256_S8x256_768_0 : ∀ a, (![768, 0] : Fin 2 → Nat) a + S8x256.size a ≤ S784x256.size a
  h_S8x256 : 0 < S8x256.numel
  shapeCasts_S8x256_S8x256 : S8x256.ShapeCasts S8x256
  slices_S8x256_o0_0_S1x256 : S8x256.Slices ![0, 0] S1x256
  inb_S784x256_S8x256_776_0 : ∀ a, (![776, 0] : Fin 2 → Nat) a + S8x256.size a ≤ S784x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x512_S4096x512_0_0 : ∀ a, (![0, 0] : Fin 2 → Nat) a + S4096x512.size a ≤ S4096x512.size a
  h_S4096x512 : 0 < S4096x512.numel
  broadcasts_S1x256_S4096x256 : S1x256.Broadcasts S4096x256
  inb_S264x16_S256x16_0_0 : ∀ a, (![0, 0] : Fin 2 → Nat) a + S256x16.size a ≤ S264x16.size a
  h_S256x16 : 0 < S256x16.numel
  shapeCasts_S256x16_S256x16 : S256x16.ShapeCasts S256x16
  inb_S264x16_S8x16_256_0 : ∀ a, (![256, 0] : Fin 2 → Nat) a + S8x16.size a ≤ S264x16.size a
  h_S8x16 : 0 < S8x16.numel
  shapeCasts_S8x16_S8x16 : S8x16.ShapeCasts S8x16
  slices_S8x16_o0_0_S1x16 : S8x16.Slices ![0, 0] S1x16
  broadcasts_S1x16_S4096x16 : S1x16.Broadcasts S4096x16
  inb_S4096x16_S4096x16_0_0 : ∀ a, (![0, 0] : Fin 2 → Nat) a + S4096x16.size a ≤ S4096x16.size a
  h_S4096x16 : 0 < S4096x16.numel
  dot_S512x256_S256x256_S512x256_1_0_0_1_n_n_wf : DotDims.WF S512x256 S256x256 S512x256 [1] [0] [0] [1] [] []
  dot_S1x256_S256x256_S1x256_1_0_0_1_n_n_wf : DotDims.WF S1x256 S256x256 S1x256 [1] [0] [0] [1] [] []
  dot_S4096x512_S512x256_S4096x256_1_0_0_1_n_n_wf : DotDims.WF S4096x512 S512x256 S4096x256 [1] [0] [0] [1] [] []
  dot_S4096x256_S256x16_S4096x16_1_0_0_1_n_n_wf : DotDims.WF S4096x256 S256x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x256.size a ≤ S784x256.size a
  hwx0_1 : ∀ i : grid0.Coords, EltTy.bits .f32 = 32 ∨ (Rect.block (s := S784x256) S784x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S264x16.size a ≤ S264x16.size a
  hwx0_2 : ∀ i : grid0.Coords, EltTy.bits .f32 = 32 ∨ (Rect.block (s := S264x16) S264x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S16384x16.size a
  hwx0_3 : ∀ i : grid0.Coords, EltTy.bits .f32 = 32 ∨ (Rect.block (s := S16384x16) S4096x16.size (cc0_transform_3 i) (hinb0_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S784x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S264x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4096x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S16384x256 : Shape := ⟨2, ![16384, 256]⟩
abbrev S1x256 : Shape := ⟨2, ![1, 256]⟩
abbrev S_ : Shape := ⟨0, ![]⟩
abbrev S16384x16 : Shape := ⟨2, ![16384, 16]⟩
abbrev S1x16 : Shape := ⟨2, ![1, 16]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x16, .f32⟩
  | .hbm, ⟨6, _⟩ => ⟨S16, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S16384x256, .f32⟩
  | .hbm, ⟨12, _⟩ => ⟨S1x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S16384x16, .f32⟩
  | .hbm, ⟨19, _⟩ => ⟨S1x16, .f32⟩
  | .hbm, ⟨20, _⟩ => ⟨S16384x16, .f32⟩
  | .hbm, ⟨21, _⟩ => ⟨S16384x16, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x512_S512x256_S16384x256_1_0_0_1_n_n_wf : DotDims.WF S16384x512 S512x256 S16384x256 [1] [0] [0] [1] [] []
  dot_S16384x256_S256x256_S16384x256_1_0_0_1_n_n_wf : DotDims.WF S16384x256 S256x256 S16384x256 [1] [0] [0] [1] [] []
  dot_S16384x256_S256x16_S16384x16_1_0_0_1_n_n_wf : DotDims.WF S16384x256 S256x16 S16384x16 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf

class Facts : Prop extends Facts₀ where

variable [Facts]
-- ==== Proof.BitsEntry.lean ====
/-
  The program around its one kernel call, and what the call finds.

  Before the call the host packs the weights: the two matrices and the two offset rows (each followed by seven zero
  rows) into one [784, 256] array, and the last matrix and its offset row (followed by seven zero rows) into one
  [264, 16] array.  The call runs over four grid points; at each it stages one [4096, 512] block of rows of the first
  argument and the two packed arrays whole, and writes back one [4096, 16] block of rows of the result.  The kernel
  keeps two scratch buffers across the points: at the first point it stores the folded matrix and the folded offset
  there, and every point reads them.

  This module fixes the contents the call finds (the host lines' results), the blocks the windows stage, the
  branch condition "this is the first grid point" in closed form, and the invariant's two shapes.
-/
import proofs.«170034_g50646254354566_cont_8to1c4_339_31_alg».proof.Proof.Gen.Kernel.Launch
import proofs.«170034_g50646254354566_cont_8to1c4_339_31_alg».proof.Proof.Gen.Kernel.Skeleton
import proofs.«170034_g50646254354566_cont_8to1c4_339_31_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- A core's buffers when the call is entered: after the nine host lines that pack the weights. -/
abbrev V (c : Dev nD) (b : Ref sig .tc) : Buf (Elt F) ((c : Thread nD τ).loc b) := StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The program is its host lines followed by the call: holding the buffers at their launch contents it reaches the call
    holding them at the lines' results. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the entry contents, a run that ends with every array of the call at what the
    proof data compute and every other buffer as the call found it leaves all seven arguments as launched: the first
    is a staged input (its array is never written), the other six are no window's array and no host line wrote them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The branch condition -/

/-- The kernel's one branch: "the grid coordinate is zero", as the printed scalar chain. -/
abbrev isFirst (i : grid0.Coords) : Prop :=
  (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 4 = 0 :=
  (by decide +kernel : ∀ t : Fin grid0.N, isFirst (grid0.coords t) ↔ t.val % 4 = 0)

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel

/-! ## The memrefs the body is called with -/

/-- One staging buffer of the output window, through which its contents are stated. -/
abbrev outView : View sig .tc .vmem S4096x16 .f32 := (Memref.whole cc0_stg3_0 : Memref sig .tc .vmem S4096x16 .f32).view
/-- Each window's current staging memref at point `t`, as the pipeline passes it, and its wholeness. -/
abbrev ms_0 (t : Fin cfg0.N) : Memref sig .tc .vmem S4096x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S784x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S264x16 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S4096x16 .f32 := win0_3.stage (cfg0.slots t 3)
abbrev hs_3 (t : Fin cfg0.N) : (ms_3 t).IsWhole := hstage0_3 ((cfg0.slots t 3).cast nbuf0_3)
/-- The two scratch buffers: the folded matrix and the folded offset. -/
abbrev scW : Memref sig .tc .vmem S512x256 .f32 := Memref.whole cc0_scratch0
abbrev scB : Memref sig .tc .vmem S1x256 .f32 := Memref.whole cc0_scratch1
abbrev scWv : View sig .tc .vmem S512x256 .f32 := scW.view
abbrev scBv : View sig .tc .vmem S1x256 .f32 := scB.view

/-- The region's plain invariant with the two scratch buffers as memrefs owned at some contents. -/
theorem PhiA_eq (c : Dev nD) :
    (Pipeline.ΦA spec0 c : sProp 𝕄)
      = iprop(iprop((∃ d, owns (c : Thread nD τ) scW fullShare d) ∗ (∃ d, owns (c : Thread nD τ) scB fullShare d)) ∗ (∃ r, prngReg c r)) := by
  unfold Pipeline.ΦA; rw [scopedRest0_eq]; simp only [scW, scB, owns_whole]; try rfl

end Cert.Kernel.Frm

end
-- ==== Proof.BitsFoldRun.lean ====
/-
  The kernel body at the first grid point, run symbolically.

  On whole staging memrefs holding the three input blocks, with the output's buffer and both scratch buffers at
  anything, the body takes its branch: it stores the folded matrix and the folded offset into the two scratch buffers,
  then computes the point's output block from the row block and what it just stored, and stores it.  It ends holding the
  inputs as they were and each of the three written buffers with its stores applied; the lists of stores are what the
  run finds.
-/
import proofs.«170034_g50646254354566_cont_8to1c4_339_31_alg».proof.Proof.BitsEntry

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output's buffer and in the two scratch buffers at the first point, with the proof
    that the body runs to its end holding the inputs unchanged and those three buffers with the stores written. -/
noncomputable def runFold (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) :
    Σ' (L3 : List (View.Piece (Elt F) S4096x16 .f32)) (LW : List (View.Piece (Elt F) S512x256 .f32)), { LB : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LB)) -∗ K ⟨⟩))
          ⊢ wp frame (wpE (defs₀ (F := F)) Variants.none c none) E (cc0__mlp_kernel i arg1 harg1 arg2 harg2 arg3 harg3 arg4 harg4 arg5 harg5 arg6 harg6) K } := by
  refine ⟨?_, ?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%d3, %f3, -, H3⟩, ⟨%dW, %fW, -, HW⟩, ⟨%dB, %fB, -, HB⟩, Hk⟩
    obtain rfl := harg1.eq_unread hf0; obtain rfl := harg2.eq_unread hf1; obtain rfl := harg3.eq_unread hf2
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HW]; · iexists _; iexact HW
    iexists _; iexact HB

end Cert.Kernel.Frm

end
-- ==== Proof.BitsStreamRun.lean ====
/-
  The kernel body at a later grid point, run symbolically.

  On whole staging memrefs holding the three input blocks, with the two scratch buffers at the folded matrix and offset
  the first point left and the output's buffer at anything, the body skips its branch, computes the point's output block
  from the row block and the scratch contents, and stores it.  It ends holding the inputs and both scratch buffers as they
  were and the output's buffer with its one store applied; the list of stores is what the run finds.
-/
import proofs.«170034_g50646254354566_cont_8to1c4_339_31_alg».proof.Proof.BitsEntry

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output's buffer at a later point, with the proof that the body runs to its end
    holding the inputs and the two scratch buffers unchanged and the output's buffer with the stores written. -/
noncomputable def runStream (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : ¬isFirst i)
    (x0 : Vec F S4096x512 .f32) (x1 : Vec F S784x256 .f32) (x2 : Vec F S264x16 .f32) (xW : Vec F S512x256 .f32) (xB : Vec F S1x256 .f32) :
    { L3 : List (View.Piece (Elt F) S4096x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xW ∗ owns (c : Thread nD τ) arg6 fullShare xB
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xW ∗ owns (c : Thread nD τ) arg6 fullShare xB) -∗ K ⟨⟩))
          ⊢ wp frame (wpE (defs₀ (F := F)) Variants.none c none) E (cc0__mlp_kernel i arg1 harg1 arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%d3, %f3, -, H3⟩, ⟨%fW, %hfW, HW⟩, ⟨%fB, %hfB, HB⟩, Hk⟩
    obtain rfl := harg1.eq_unread hf0; obtain rfl := harg2.eq_unread hf1; obtain rfl := harg3.eq_unread hf2
    obtain rfl := harg5.eq_unread hfW; obtain rfl := harg6.eq_unread hfB
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HW]
    · iexists _; isplitr; · ipureintro; exact harg5.read_unread _
      iexact HW
    iexists _; isplitr; · ipureintro; exact harg6.read_unread _
    iexact HB

end Cert.Kernel.Frm

end
-- ==== Proof.BitsFrame.lean ====
/-
  The frame of the program: it runs to its end, faults nowhere, and leaves its seven arguments as launched.

  What the kernel leaves, point by point: at point 0 the body stores the folded matrix and the folded offset into its
  two scratch buffers and the first output block into the output window's buffer; at each later point it finds the two
  scratch buffers as the point before left them, leaves them so, and stores that point's output block.  The region's
  invariant is therefore: before point 0 the scratch buffers hold anything; before each later point they hold what
  point 0 computed, carried unchanged.  With this the body's symbolic runs discharge the pipeline's per-point obligation
  and the pipeline library's launch theorem gives the run.
-/
import proofs.«170034_g50646254354566_cont_8to1c4_339_31_alg».proof.Proof.BitsFoldRun
import proofs.«170034_g50646254354566_cont_8to1c4_339_31_alg».proof.Proof.BitsStreamRun

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point's memrefs and blocks -/

/-- The first-point run at point `t`'s staging memrefs, the scratch buffers, and the blocks the windows stage there. -/
abbrev foldAt (c : Dev nD) (t : Fin cfg0.N) (h : isFirst (grid0.coords t)) :=
  runFold (F := F) c (grid0.coords t) (ms_0 t) (hs_0 t) (ms_1 t) (hs_1 t) (ms_2 t) (hs_2 t) (ms_3 t) (hs_3 t) scW (Memref.isWhole_whole _) scB (Memref.isWhole_whole _) h
    (iblk m c 0 t) (iblk m c 1 t) (iblk m c 2 t)

/-- The later-point run at point `t`, the scratch buffers at `xW`, `xB`. -/
abbrev streamAt (c : Dev nD) (t : Fin cfg0.N) (h : ¬isFirst (grid0.coords t)) (xW : Vec F S512x256 .f32) (xB : Vec F S1x256 .f32) :=
  runStream (F := F) c (grid0.coords t) (ms_0 t) (hs_0 t) (ms_1 t) (hs_1 t) (ms_2 t) (hs_2 t) (ms_3 t) (hs_3 t) scW (Memref.isWhole_whole _) scB (Memref.isWhole_whole _) h
    (iblk m c 0 t) (iblk m c 1 t) (iblk m c 2 t) xW xB

/-! ## The stores cover their buffers -/

theorem coverFold_out (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) (y : S4096x16.Idx) :
    ∃ pc ∈ (runFold c i arg1 harg1 arg2 harg2 arg3 harg3 arg4 harg4 arg5 harg5 arg6 harg6 hc x0 x1 x2).1, y ∈ pc.1.set :=
  View.cover_of_tiledL (runFold c i arg1 harg1 arg2 harg2 arg3 harg3 arg4 harg4 arg5 harg5 arg6 harg6 hc x0 x1 x2).1 S4096x16.size (by sl_kernel_rfl) y

theorem coverFold_W (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) (y : S512x256.Idx) :
    ∃ pc ∈ (runFold c i arg1 harg1 arg2 harg2 arg3 harg3 arg4 harg4 arg5 harg5 arg6 harg6 hc x0 x1 x2).2.1, y ∈ pc.1.set :=
  View.cover_of_tiledL (runFold c i arg1 harg1 arg2 harg2 arg3 harg3 arg4 harg4 arg5 harg5 arg6 harg6 hc x0 x1 x2).2.1 S512x256.size (by sl_kernel_rfl) y

theorem coverFold_B (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) (y : S1x256.Idx) :
    ∃ pc ∈ (runFold c i arg1 harg1 arg2 harg2 arg3 harg3 arg4 harg4 arg5 harg5 arg6 harg6 hc x0 x1 x2).2.2.1, y ∈ pc.1.set :=
  View.cover_of_tiledL (runFold c i arg1 harg1 arg2 harg2 arg3 harg3 arg4 harg4 arg5 harg5 arg6 harg6 hc x0 x1 x2).2.2.1 S1x256.size (by sl_kernel_rfl) y

theorem coverStream_out (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : ¬isFirst i)
    (x0 : Vec F S4096x512 .f32) (x1 : Vec F S784x256 .f32) (x2 : Vec F S264x16 .f32) (xW : Vec F S512x256 .f32) (xB : Vec F S1x256 .f32) (y : S4096x16.Idx) :
    ∃ pc ∈ (runStream c i arg1 harg1 arg2 harg2 arg3 harg3 arg4 harg4 arg5 harg5 arg6 harg6 hc x0 x1 x2 xW xB).1, y ∈ pc.1.set :=
  View.cover_of_tiledL (runStream c i arg1 harg1 arg2 harg2 arg3 harg3 arg4 harg4 arg5 harg5 arg6 harg6 hc x0 x1 x2 xW xB).1 S4096x16.size (by sl_kernel_rfl) y

/-! ## What each run leaves -/

/-- The output block the first-point run leaves: its stores read back. -/
def outFold (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) : Vec F S4096x16 .f32 :=
  outView.read (Elt F) (outView.writes (Elt F) outView.junk (runFold c i arg1 harg1 arg2 harg2 arg3 harg3 arg4 harg4 arg5 harg5 arg6 harg6 hc x0 x1 x2).1)

/-- The folded matrix the first-point run leaves in the first scratch buffer. -/
def scWFold (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) : Vec F S512x256 .f32 :=
  scWv.read (Elt F) (scWv.writes (Elt F) scWv.junk (runFold c i arg1 harg1 arg2 harg2 arg3 harg3 arg4 harg4 arg5 harg5 arg6 harg6 hc x0 x1 x2).2.1)

/-- The folded offset the first-point run leaves in the second scratch buffer. -/
def scBFold (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) : Vec F S1x256 .f32 :=
  scBv.read (Elt F) (scBv.writes (Elt F) scBv.junk (runFold c i arg1 harg1 arg2 harg2 arg3 harg3 arg4 harg4 arg5 harg5 arg6 harg6 hc x0 x1 x2).2.2.1)

/-- The output block a later-point run leaves. -/
def outStream (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : ¬isFirst i)
    (x0 : Vec F S4096x512 .f32) (x1 : Vec F S784x256 .f32) (x2 : Vec F S264x16 .f32) (xW : Vec F S512x256 .f32) (xB : Vec F S1x256 .f32) : Vec F S4096x16 .f32 :=
  outView.read (Elt F) (outView.writes (Elt F) outView.junk (runStream c i arg1 harg1 arg2 harg2 arg3 harg3 arg4 harg4 arg5 harg5 arg6 harg6 hc x0 x1 x2 xW xB).1)

/-! ## Point by point -/

theorem first_zero (hn : 0 < cfg0.N) : isFirst (grid0.coords ⟨0, hn⟩) := (isFirst_iff ⟨0, hn⟩).mpr (Nat.zero_mod _)

theorem notFirst_succ (n : ℕ) (hn : n + 1 < cfg0.N) : ¬isFirst (grid0.coords ⟨n + 1, hn⟩) := fun h => by
  have h4 := (isFirst_iff ⟨n + 1, hn⟩).mp h
  have hN : n + 1 < 4 := lt_of_lt_of_eq hn (show cfg0.N = 4 from N_0)
  (try dsimp only at h4); omega

theorem first_of (t : Fin cfg0.N) (h : t.val = 0) : isFirst (grid0.coords t) := (isFirst_iff t).mpr (by rw [h])

theorem notFirst_of (t : Fin cfg0.N) (h : t.val ≠ 0) : ¬isFirst (grid0.coords t) := fun h' => by
  have h4 := (isFirst_iff t).mp h'
  have hN : t.val < 4 := lt_of_lt_of_eq t.isLt (show cfg0.N = 4 from N_0)
  omega

/-- What the output window's buffer and the two scratch buffers hold after the body at position `n`: at point 0 what the
    first-point run leaves; afterwards the later-point run's output block, over the scratch contents the point before left,
    which it carries on unchanged. -/
def outsAt (c : Dev nD) : (n : ℕ) → n < cfg0.N → Vec F S4096x16 .f32 × Vec F S512x256 .f32 × Vec F S1x256 .f32
  | 0, hn => (outFold c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scW (Memref.isWhole_whole _) scB (Memref.isWhole_whole _) (first_zero hn) (iblk m c 0 ⟨0, hn⟩) (iblk m c 1 ⟨0, hn⟩) (iblk m c 2 ⟨0, hn⟩),
      scWFold c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scW (Memref.isWhole_whole _) scB (Memref.isWhole_whole _) (first_zero hn) (iblk m c 0 ⟨0, hn⟩) (iblk m c 1 ⟨0, hn⟩) (iblk m c 2 ⟨0, hn⟩),
      scBFold c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scW (Memref.isWhole_whole _) scB (Memref.isWhole_whole _) (first_zero hn) (iblk m c 0 ⟨0, hn⟩) (iblk m c 1 ⟨0, hn⟩) (iblk m c 2 ⟨0, hn⟩))
  | n + 1, hn =>
    (outStream c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scW (Memref.isWhole_whole _) scB (Memref.isWhole_whole _) (notFirst_succ n hn) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2,
      (outsAt c n (Nat.lt_of_succ_lt hn)).2.1, (outsAt c n (Nat.lt_of_succ_lt hn)).2.2)

/-- At point 0: the first-point run's contents. -/
theorem outsAt_first (c : Dev nD) (t : Fin cfg0.N) (h0 : t.val = 0) :
    outsAt m c t.val t.isLt = (outFold c (grid0.coords t) (ms_0 t) (hs_0 t) (ms_1 t) (hs_1 t) (ms_2 t) (hs_2 t) (ms_3 t) (hs_3 t) scW (Memref.isWhole_whole _) scB (Memref.isWhole_whole _) (first_of t h0) (iblk m c 0 t) (iblk m c 1 t) (iblk m c 2 t),
      scWFold c (grid0.coords t) (ms_0 t) (hs_0 t) (ms_1 t) (hs_1 t) (ms_2 t) (hs_2 t) (ms_3 t) (hs_3 t) scW (Memref.isWhole_whole _) scB (Memref.isWhole_whole _) (first_of t h0) (iblk m c 0 t) (iblk m c 1 t) (iblk m c 2 t),
      scBFold c (grid0.coords t) (ms_0 t) (hs_0 t) (ms_1 t) (hs_1 t) (ms_2 t) (hs_2 t) (ms_3 t) (hs_3 t) scW (Memref.isWhole_whole _) scB (Memref.isWhole_whole _) (first_of t h0) (iblk m c 0 t) (iblk m c 1 t) (iblk m c 2 t)) := by
  obtain ⟨n, hn⟩ := t
  cases n with
  | zero => exact rfl
  | succ n => exact absurd h0 (Nat.succ_ne_zero n)

/-- At a later point: the later-point run's output block over what the point before left in the scratch buffers, which
    stay as they were. -/
theorem outsAt_later (c : Dev nD) (t : Fin cfg0.N) (h0 : t.val ≠ 0) :
    outsAt m c t.val t.isLt = (outStream c (grid0.coords t) (ms_0 t) (hs_0 t) (ms_1 t) (hs_1 t) (ms_2 t) (hs_2 t) (ms_3 t) (hs_3 t) scW (Memref.isWhole_whole _) scB (Memref.isWhole_whole _) (notFirst_of t h0) (iblk m c 0 t) (iblk m c 1 t) (iblk m c 2 t)
        (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd rfl h0
  | succ n => exact rfl

/-- The region's invariant before position `n`: before the first point the scratch buffers hold anything; afterwards they
    hold what the point before left. -/
def PhiS (c : Dev nD) : (n : ℕ) → n ≤ cfg0.N → sProp 𝕄
  | 0, _ => Pipeline.ΦA spec0 c
  | n + 1, hn => iprop(iprop(owns (c : Thread nD τ) scW fullShare ((outsAt m c n hn).2.1) ∗ owns (c : Thread nD τ) scB fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scW fullShare ((outsAt m c n hn).2.1) ∗ owns (c : Thread nD τ) scB fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scW fullShare ((outsAt m c (n - 1) (by omega)).2.1) ∗ owns (c : Thread nD τ) scB fullShare ((outsAt m c (n - 1) (by omega)).2.2)) ∗ (∃ r, prngReg c r)) := by
  cases n with
  | zero => exact absurd rfl hz
  | succ n => rfl

/-! ## The pipeline's proof data -/

/-- The arrays as the call finds them; after the body at point `t` each input's buffer at its block and the output's at
    that point's output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; at point 0 the invariant hands over the scratch buffers at
    anything and takes them back at the folded values; at a later point it hands them over at what the point before left and
    takes them back unchanged; the output's buffer comes back at that point's output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  by_cases hz : t.val = 0
  · rw [outsAt_first m c t hz]
    unfold outFold scWFold scBFold; (try dsimp only)
    rw [PhiS_castSucc m c t, PhiS_zero m c _ _ hz, PhiA_eq]
    iintro ⟨⟨⟨HW, HB⟩, Hg⟩, Ho, ⟨%d0, H0⟩, ⟨%d1, H1⟩, ⟨%d2, H2⟩, ⟨%d3, H3⟩⟩
    iapply ((runFold c (grid0.coords t) _ _ _ _ _ _ _ _ _ _ _ _ (first_of t hz) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [HW]; · iexact HW
    isplitl [HB]; · iexact HB
    iintro ⟨H0, H1, H2, ⟨%e3, H3⟩, ⟨%eW, HW⟩, ⟨%eB, HB⟩⟩
    isplitl [HW HB Hg]
    · isplitl [HW HB]
      · isplitl [HW]
        · unfold owns; iexists _; isplitr
          swap; · iexact HW
          ipureintro; exact View.read_writes_of_cover _ _ _ _ _ (coverFold_W c _ _ _ _ _ _ _ _ _ _ _ _ _ _ _ _ _)
        · unfold owns; iexists _; isplitr
          swap; · iexact HB
          ipureintro; exact View.read_writes_of_cover _ _ _ _ _ (coverFold_B c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFold_out c _ _ _ _ _ _ _ _ _ _ _ _ _ _ _ _ _)
  · rw [outsAt_later m c t hz]
    unfold outStream; (try dsimp only)
    rw [PhiS_castSucc m c t, PhiS_pos m c _ _ hz]
    iintro ⟨⟨⟨HW, HB⟩, Hg⟩, Ho, ⟨%d0, H0⟩, ⟨%d1, H1⟩, ⟨%d2, H2⟩, ⟨%d3, H3⟩⟩
    iapply ((runStream c (grid0.coords t) _ _ _ _ _ _ _ _ _ _ _ _ (notFirst_of t hz) (iblk m c 0 t) (iblk m c 1 t) (iblk m c 2 t) _ _).2 Set.univ _)
    isplitl [H0]; · iexact H0
    isplitl [H1]; · iexact H1
    isplitl [H2]; · iexact H2
    isplitl [H3]; · iexists _; iexact H3
    isplitl [HW]; · iexact HW
    isplitl [HB]; · iexact HB
    iintro ⟨H0, H1, H2, ⟨%e3, H3⟩, HW, HB⟩
    isplitl [HW HB Hg]
    · isplitl [HW HB]
      · isplitl [HW]; · iexact HW
        iexact HB
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverStream_out c _ _ _ _ _ _ _ _ _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HW, HB⟩, Hg⟩
  isplitl [HW HB]
  · isplitl [HW]
    · iexists _; iexact HW
    iexists _; iexact HB
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- From any memory with zero counters every weakly fair execution of the program terminates, and every final state has
    every array of the call at what the proof data compute and every other buffer as the call found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frm

end
-- ==== Proof.IdealEntry.lean ====
/-
  The program around its one kernel call, and what the call finds.

  Before the call the host packs the weights: the two matrices and the two offset rows (each followed by seven zero
  rows) into one [784, 256] array, and the last matrix and its offset row (followed by seven zero rows) into one
  [264, 16] array.  The call runs over four grid points; at each it stages one [4096, 512] block of rows of the first
  argument and the two packed arrays whole, and writes back one [4096, 16] block of rows of the result.  The kernel
  keeps two scratch buffers across the points: at the first point it stores the folded matrix and the folded offset
  there, and every point reads them.

  This module fixes the contents the call finds (the host lines' results), the blocks the windows stage, the
  branch condition "this is the first grid point" in closed form, and the invariant's two shapes.
-/
import proofs.«170034_g50646254354566_cont_8to1c4_339_31_alg».proof.Proof.Gen.KernelIdeal.Launch
import proofs.«170034_g50646254354566_cont_8to1c4_339_31_alg».proof.Proof.Gen.KernelIdeal.Skeleton
import proofs.«170034_g50646254354566_cont_8to1c4_339_31_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- A core's buffers when the call is entered: after the nine host lines that pack the weights. -/
abbrev V (c : Dev nD) (b : Ref sig .tc) : Buf (Elt F) ((c : Thread nD τ).loc b) := StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- The program is its host lines followed by the call: holding the buffers at their launch contents it reaches the call
    holding them at the lines' results. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-- No host line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- For any proof data whose arrays are the entry contents, a run that ends with every array of the call at what the
    proof data compute and every other buffer as the call found it leaves all seven arguments as launched: the first
    is a staged input (its array is never written), the other six are no window's array and no host line wrote them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The branch condition -/

/-- The kernel's one branch: "the grid coordinate is zero", as the printed scalar chain. -/
abbrev isFirst (i : grid0.Coords) : Prop :=
  (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 4 = 0 :=
  (by decide +kernel : ∀ t : Fin grid0.N, isFirst (grid0.coords t) ↔ t.val % 4 = 0)

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel

/-! ## The memrefs the body is called with -/

/-- One staging buffer of the output window, through which its contents are stated. -/
abbrev outView : View sig .tc .vmem S4096x16 .f32 := (Memref.whole cc0_stg3_0 : Memref sig .tc .vmem S4096x16 .f32).view
/-- Each window's current staging memref at point `t`, as the pipeline passes it, and its wholeness. -/
abbrev ms_0 (t : Fin cfg0.N) : Memref sig .tc .vmem S4096x512 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S784x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S264x16 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S4096x16 .f32 := win0_3.stage (cfg0.slots t 3)
abbrev hs_3 (t : Fin cfg0.N) : (ms_3 t).IsWhole := hstage0_3 ((cfg0.slots t 3).cast nbuf0_3)
/-- The two scratch buffers: the folded matrix and the folded offset. -/
abbrev scW : Memref sig .tc .vmem S512x256 .f32 := Memref.whole cc0_scratch0
abbrev scB : Memref sig .tc .vmem S1x256 .f32 := Memref.whole cc0_scratch1
abbrev scWv : View sig .tc .vmem S512x256 .f32 := scW.view
abbrev scBv : View sig .tc .vmem S1x256 .f32 := scB.view

/-- The region's plain invariant with the two scratch buffers as memrefs owned at some contents. -/
theorem PhiA_eq (c : Dev nD) :
    (Pipeline.ΦA spec0 c : sProp 𝕄)
      = iprop(iprop((∃ d, owns (c : Thread nD τ) scW fullShare d) ∗ (∃ d, owns (c : Thread nD τ) scB fullShare d)) ∗ (∃ r, prngReg c r)) := by
  unfold Pipeline.ΦA; rw [scopedRest0_eq]; simp only [scW, scB, owns_whole]; try rfl

end Cert.KernelIdeal.Frm

end
-- ==== Proof.IdealFoldRun.lean ====
/-
  The kernel body at the first grid point, run symbolically.

  On whole staging memrefs holding the three input blocks, with the output's buffer and both scratch buffers at
  anything, the body takes its branch: it stores the folded matrix and the folded offset into the two scratch buffers,
  then computes the point's output block from the row block and what it just stored, and stores it.  It ends holding the
  inputs as they were and each of the three written buffers with its stores applied; the lists of stores are what the
  run finds.
-/
import proofs.«170034_g50646254354566_cont_8to1c4_339_31_alg».proof.Proof.IdealEntry

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output's buffer and in the two scratch buffers at the first point, with the proof
    that the body runs to its end holding the inputs unchanged and those three buffers with the stores written. -/
noncomputable def runFold (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) :
    Σ' (L3 : List (View.Piece (Elt F) S4096x16 .f32)) (LW : List (View.Piece (Elt F) S512x256 .f32)), { LB : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LW)
                ∗ (∃ f, arg6.view.loc (c : Thread nD τ) ↦[arg6.view.set]{fullShare} arg6.view.writes (Elt F) f LB)) -∗ K ⟨⟩))
          ⊢ wp frame (wpE (defs₀ (F := F)) Variants.none c none) E (cc0__mlp_kernel i arg1 harg1 arg2 harg2 arg3 harg3 arg4 harg4 arg5 harg5 arg6 harg6) K } := by
  refine ⟨?_, ?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%d3, %f3, -, H3⟩, ⟨%dW, %fW, -, HW⟩, ⟨%dB, %fB, -, HB⟩, Hk⟩
    obtain rfl := harg1.eq_unread hf0; obtain rfl := harg2.eq_unread hf1; obtain rfl := harg3.eq_unread hf2
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HW]; · iexists _; iexact HW
    iexists _; iexact HB

end Cert.KernelIdeal.Frm

end
-- ==== Proof.IdealStreamRun.lean ====
/-
  The kernel body at a later grid point, run symbolically.

  On whole staging memrefs holding the three input blocks, with the two scratch buffers at the folded matrix and offset
  the first point left and the output's buffer at anything, the body skips its branch, computes the point's output block
  from the row block and the scratch contents, and stores it.  It ends holding the inputs and both scratch buffers as they
  were and the output's buffer with its one store applied; the list of stores is what the run finds.
-/
import proofs.«170034_g50646254354566_cont_8to1c4_339_31_alg».proof.Proof.IdealEntry

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the output's buffer at a later point, with the proof that the body runs to its end
    holding the inputs and the two scratch buffers unchanged and the output's buffer with the stores written. -/
noncomputable def runStream (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : ¬isFirst i)
    (x0 : Vec F S4096x512 .f32) (x1 : Vec F S784x256 .f32) (x2 : Vec F S264x16 .f32) (xW : Vec F S512x256 .f32) (xB : Vec F S1x256 .f32) :
    { L3 : List (View.Piece (Elt F) S4096x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xW ∗ owns (c : Thread nD τ) arg6 fullShare xB
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xW ∗ owns (c : Thread nD τ) arg6 fullShare xB) -∗ K ⟨⟩))
          ⊢ wp frame (wpE (defs₀ (F := F)) Variants.none c none) E (cc0__mlp_kernel i arg1 harg1 arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%d3, %f3, -, H3⟩, ⟨%fW, %hfW, HW⟩, ⟨%fB, %hfB, HB⟩, Hk⟩
    obtain rfl := harg1.eq_unread hf0; obtain rfl := harg2.eq_unread hf1; obtain rfl := harg3.eq_unread hf2
    obtain rfl := harg5.eq_unread hfW; obtain rfl := harg6.eq_unread hfB
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HW]
    · iexists _; isplitr; · ipureintro; exact harg5.read_unread _
      iexact HW
    iexists _; isplitr; · ipureintro; exact harg6.read_unread _
    iexact HB

end Cert.KernelIdeal.Frm

end
-- ==== Proof.IdealFrame.lean ====
/-
  The frame of the program: it runs to its end, faults nowhere, and leaves its seven arguments as launched.

  What the kernel leaves, point by point: at point 0 the body stores the folded matrix and the folded offset into its
  two scratch buffers and the first output block into the output window's buffer; at each later point it finds the two
  scratch buffers as the point before left them, leaves them so, and stores that point's output block.  The region's
  invariant is therefore: before point 0 the scratch buffers hold anything; before each later point they hold what
  point 0 computed, carried unchanged.  With this the body's symbolic runs discharge the pipeline's per-point obligation
  and the pipeline library's launch theorem gives the run.
-/
import proofs.«170034_g50646254354566_cont_8to1c4_339_31_alg».proof.Proof.IdealFoldRun
import proofs.«170034_g50646254354566_cont_8to1c4_339_31_alg».proof.Proof.IdealStreamRun

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point's memrefs and blocks -/

/-- The first-point run at point `t`'s staging memrefs, the scratch buffers, and the blocks the windows stage there. -/
abbrev foldAt (c : Dev nD) (t : Fin cfg0.N) (h : isFirst (grid0.coords t)) :=
  runFold (F := F) c (grid0.coords t) (ms_0 t) (hs_0 t) (ms_1 t) (hs_1 t) (ms_2 t) (hs_2 t) (ms_3 t) (hs_3 t) scW (Memref.isWhole_whole _) scB (Memref.isWhole_whole _) h
    (iblk m c 0 t) (iblk m c 1 t) (iblk m c 2 t)

/-- The later-point run at point `t`, the scratch buffers at `xW`, `xB`. -/
abbrev streamAt (c : Dev nD) (t : Fin cfg0.N) (h : ¬isFirst (grid0.coords t)) (xW : Vec F S512x256 .f32) (xB : Vec F S1x256 .f32) :=
  runStream (F := F) c (grid0.coords t) (ms_0 t) (hs_0 t) (ms_1 t) (hs_1 t) (ms_2 t) (hs_2 t) (ms_3 t) (hs_3 t) scW (Memref.isWhole_whole _) scB (Memref.isWhole_whole _) h
    (iblk m c 0 t) (iblk m c 1 t) (iblk m c 2 t) xW xB

/-! ## The stores cover their buffers -/

theorem coverFold_out (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) (y : S4096x16.Idx) :
    ∃ pc ∈ (runFold c i arg1 harg1 arg2 harg2 arg3 harg3 arg4 harg4 arg5 harg5 arg6 harg6 hc x0 x1 x2).1, y ∈ pc.1.set :=
  View.cover_of_tiledL (runFold c i arg1 harg1 arg2 harg2 arg3 harg3 arg4 harg4 arg5 harg5 arg6 harg6 hc x0 x1 x2).1 S4096x16.size (by sl_kernel_rfl) y

theorem coverFold_W (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) (y : S512x256.Idx) :
    ∃ pc ∈ (runFold c i arg1 harg1 arg2 harg2 arg3 harg3 arg4 harg4 arg5 harg5 arg6 harg6 hc x0 x1 x2).2.1, y ∈ pc.1.set :=
  View.cover_of_tiledL (runFold c i arg1 harg1 arg2 harg2 arg3 harg3 arg4 harg4 arg5 harg5 arg6 harg6 hc x0 x1 x2).2.1 S512x256.size (by sl_kernel_rfl) y

theorem coverFold_B (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) (y : S1x256.Idx) :
    ∃ pc ∈ (runFold c i arg1 harg1 arg2 harg2 arg3 harg3 arg4 harg4 arg5 harg5 arg6 harg6 hc x0 x1 x2).2.2.1, y ∈ pc.1.set :=
  View.cover_of_tiledL (runFold c i arg1 harg1 arg2 harg2 arg3 harg3 arg4 harg4 arg5 harg5 arg6 harg6 hc x0 x1 x2).2.2.1 S1x256.size (by sl_kernel_rfl) y

theorem coverStream_out (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : ¬isFirst i)
    (x0 : Vec F S4096x512 .f32) (x1 : Vec F S784x256 .f32) (x2 : Vec F S264x16 .f32) (xW : Vec F S512x256 .f32) (xB : Vec F S1x256 .f32) (y : S4096x16.Idx) :
    ∃ pc ∈ (runStream c i arg1 harg1 arg2 harg2 arg3 harg3 arg4 harg4 arg5 harg5 arg6 harg6 hc x0 x1 x2 xW xB).1, y ∈ pc.1.set :=
  View.cover_of_tiledL (runStream c i arg1 harg1 arg2 harg2 arg3 harg3 arg4 harg4 arg5 harg5 arg6 harg6 hc x0 x1 x2 xW xB).1 S4096x16.size (by sl_kernel_rfl) y

/-! ## What each run leaves -/

/-- The output block the first-point run leaves: its stores read back. -/
def outFold (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) : Vec F S4096x16 .f32 :=
  outView.read (Elt F) (outView.writes (Elt F) outView.junk (runFold c i arg1 harg1 arg2 harg2 arg3 harg3 arg4 harg4 arg5 harg5 arg6 harg6 hc x0 x1 x2).1)

/-- The folded matrix the first-point run leaves in the first scratch buffer. -/
def scWFold (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) : Vec F S512x256 .f32 :=
  scWv.read (Elt F) (scWv.writes (Elt F) scWv.junk (runFold c i arg1 harg1 arg2 harg2 arg3 harg3 arg4 harg4 arg5 harg5 arg6 harg6 hc x0 x1 x2).2.1)

/-- The folded offset the first-point run leaves in the second scratch buffer. -/
def scBFold (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) : Vec F S1x256 .f32 :=
  scBv.read (Elt F) (scBv.writes (Elt F) scBv.junk (runFold c i arg1 harg1 arg2 harg2 arg3 harg3 arg4 harg4 arg5 harg5 arg6 harg6 hc x0 x1 x2).2.2.1)

/-- The output block a later-point run leaves. -/
def outStream (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : ¬isFirst i)
    (x0 : Vec F S4096x512 .f32) (x1 : Vec F S784x256 .f32) (x2 : Vec F S264x16 .f32) (xW : Vec F S512x256 .f32) (xB : Vec F S1x256 .f32) : Vec F S4096x16 .f32 :=
  outView.read (Elt F) (outView.writes (Elt F) outView.junk (runStream c i arg1 harg1 arg2 harg2 arg3 harg3 arg4 harg4 arg5 harg5 arg6 harg6 hc x0 x1 x2 xW xB).1)

/-! ## Point by point -/

theorem first_zero (hn : 0 < cfg0.N) : isFirst (grid0.coords ⟨0, hn⟩) := (isFirst_iff ⟨0, hn⟩).mpr (Nat.zero_mod _)

theorem notFirst_succ (n : ℕ) (hn : n + 1 < cfg0.N) : ¬isFirst (grid0.coords ⟨n + 1, hn⟩) := fun h => by
  have h4 := (isFirst_iff ⟨n + 1, hn⟩).mp h
  have hN : n + 1 < 4 := lt_of_lt_of_eq hn (show cfg0.N = 4 from N_0)
  (try dsimp only at h4); omega

theorem first_of (t : Fin cfg0.N) (h : t.val = 0) : isFirst (grid0.coords t) := (isFirst_iff t).mpr (by rw [h])

theorem notFirst_of (t : Fin cfg0.N) (h : t.val ≠ 0) : ¬isFirst (grid0.coords t) := fun h' => by
  have h4 := (isFirst_iff t).mp h'
  have hN : t.val < 4 := lt_of_lt_of_eq t.isLt (show cfg0.N = 4 from N_0)
  omega

/-- What the output window's buffer and the two scratch buffers hold after the body at position `n`: at point 0 what the
    first-point run leaves; afterwards the later-point run's output block, over the scratch contents the point before left,
    which it carries on unchanged. -/
def outsAt (c : Dev nD) : (n : ℕ) → n < cfg0.N → Vec F S4096x16 .f32 × Vec F S512x256 .f32 × Vec F S1x256 .f32
  | 0, hn => (outFold c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scW (Memref.isWhole_whole _) scB (Memref.isWhole_whole _) (first_zero hn) (iblk m c 0 ⟨0, hn⟩) (iblk m c 1 ⟨0, hn⟩) (iblk m c 2 ⟨0, hn⟩),
      scWFold c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scW (Memref.isWhole_whole _) scB (Memref.isWhole_whole _) (first_zero hn) (iblk m c 0 ⟨0, hn⟩) (iblk m c 1 ⟨0, hn⟩) (iblk m c 2 ⟨0, hn⟩),
      scBFold c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scW (Memref.isWhole_whole _) scB (Memref.isWhole_whole _) (first_zero hn) (iblk m c 0 ⟨0, hn⟩) (iblk m c 1 ⟨0, hn⟩) (iblk m c 2 ⟨0, hn⟩))
  | n + 1, hn =>
    (outStream c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scW (Memref.isWhole_whole _) scB (Memref.isWhole_whole _) (notFirst_succ n hn) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2,
      (outsAt c n (Nat.lt_of_succ_lt hn)).2.1, (outsAt c n (Nat.lt_of_succ_lt hn)).2.2)

/-- At point 0: the first-point run's contents. -/
theorem outsAt_first (c : Dev nD) (t : Fin cfg0.N) (h0 : t.val = 0) :
    outsAt m c t.val t.isLt = (outFold c (grid0.coords t) (ms_0 t) (hs_0 t) (ms_1 t) (hs_1 t) (ms_2 t) (hs_2 t) (ms_3 t) (hs_3 t) scW (Memref.isWhole_whole _) scB (Memref.isWhole_whole _) (first_of t h0) (iblk m c 0 t) (iblk m c 1 t) (iblk m c 2 t),
      scWFold c (grid0.coords t) (ms_0 t) (hs_0 t) (ms_1 t) (hs_1 t) (ms_2 t) (hs_2 t) (ms_3 t) (hs_3 t) scW (Memref.isWhole_whole _) scB (Memref.isWhole_whole _) (first_of t h0) (iblk m c 0 t) (iblk m c 1 t) (iblk m c 2 t),
      scBFold c (grid0.coords t) (ms_0 t) (hs_0 t) (ms_1 t) (hs_1 t) (ms_2 t) (hs_2 t) (ms_3 t) (hs_3 t) scW (Memref.isWhole_whole _) scB (Memref.isWhole_whole _) (first_of t h0) (iblk m c 0 t) (iblk m c 1 t) (iblk m c 2 t)) := by
  obtain ⟨n, hn⟩ := t
  cases n with
  | zero => exact rfl
  | succ n => exact absurd h0 (Nat.succ_ne_zero n)

/-- At a later point: the later-point run's output block over what the point before left in the scratch buffers, which
    stay as they were. -/
theorem outsAt_later (c : Dev nD) (t : Fin cfg0.N) (h0 : t.val ≠ 0) :
    outsAt m c t.val t.isLt = (outStream c (grid0.coords t) (ms_0 t) (hs_0 t) (ms_1 t) (hs_1 t) (ms_2 t) (hs_2 t) (ms_3 t) (hs_3 t) scW (Memref.isWhole_whole _) scB (Memref.isWhole_whole _) (notFirst_of t h0) (iblk m c 0 t) (iblk m c 1 t) (iblk m c 2 t)
        (outsAt m c (t.val - 1) (Nat.lt_of_le_of_lt (Nat.sub_le _ _) t.isLt)).2.1 (outsAt m c (t.val - 1) (Nat.lt_of_le_of_lt (Nat.sub_le _ _) t.isLt)).2.2,
      (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact absurd rfl h0
  | succ n => exact rfl

/-- The region's invariant before position `n`: before the first point the scratch buffers hold anything; afterwards they
    hold what the point before left. -/
def PhiS (c : Dev nD) : (n : ℕ) → n ≤ cfg0.N → sProp 𝕄
  | 0, _ => Pipeline.ΦA spec0 c
  | n + 1, hn => iprop(iprop(owns (c : Thread nD τ) scW fullShare ((outsAt m c n hn).2.1) ∗ owns (c : Thread nD τ) scB fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scW fullShare ((outsAt m c n hn).2.1) ∗ owns (c : Thread nD τ) scB fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scW fullShare ((outsAt m c (n - 1) (by omega)).2.1) ∗ owns (c : Thread nD τ) scB fullShare ((outsAt m c (n - 1) (by omega)).2.2)) ∗ (∃ r, prngReg c r)) := by
  cases n with
  | zero => exact absurd rfl hz
  | succ n => rfl

/-! ## The pipeline's proof data -/

/-- The arrays as the call finds them; after the body at point `t` each input's buffer at its block and the output's at
    that point's output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; at point 0 the invariant hands over the scratch buffers at
    anything and takes them back at the folded values; at a later point it hands them over at what the point before left and
    takes them back unchanged; the output's buffer comes back at that point's output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  by_cases hz : t.val = 0
  · rw [outsAt_first m c t hz]
    unfold outFold scWFold scBFold; (try dsimp only)
    rw [PhiS_castSucc m c t, PhiS_zero m c _ _ hz, PhiA_eq]
    iintro ⟨⟨⟨HW, HB⟩, Hg⟩, Ho, ⟨%d0, H0⟩, ⟨%d1, H1⟩, ⟨%d2, H2⟩, ⟨%d3, H3⟩⟩
    iapply ((runFold c (grid0.coords t) _ _ _ _ _ _ _ _ _ _ _ _ (first_of t hz) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [HW]; · iexact HW
    isplitl [HB]; · iexact HB
    iintro ⟨H0, H1, H2, ⟨%e3, H3⟩, ⟨%eW, HW⟩, ⟨%eB, HB⟩⟩
    isplitl [HW HB Hg]
    · isplitl [HW HB]
      · isplitl [HW]
        · unfold owns; iexists _; isplitr
          swap; · iexact HW
          ipureintro; exact View.read_writes_of_cover _ _ _ _ _ (coverFold_W c _ _ _ _ _ _ _ _ _ _ _ _ _ _ _ _ _)
        · unfold owns; iexists _; isplitr
          swap; · iexact HB
          ipureintro; exact View.read_writes_of_cover _ _ _ _ _ (coverFold_B c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFold_out c _ _ _ _ _ _ _ _ _ _ _ _ _ _ _ _ _)
  · rw [outsAt_later m c t hz]
    unfold outStream; (try dsimp only)
    rw [PhiS_castSucc m c t, PhiS_pos m c _ _ hz]
    iintro ⟨⟨⟨HW, HB⟩, Hg⟩, Ho, ⟨%d0, H0⟩, ⟨%d1, H1⟩, ⟨%d2, H2⟩, ⟨%d3, H3⟩⟩
    iapply ((runStream c (grid0.coords t) _ _ _ _ _ _ _ _ _ _ _ _ (notFirst_of t hz) (iblk m c 0 t) (iblk m c 1 t) (iblk m c 2 t) _ _).2 Set.univ _)
    isplitl [H0]; · iexact H0
    isplitl [H1]; · iexact H1
    isplitl [H2]; · iexact H2
    isplitl [H3]; · iexists _; iexact H3
    isplitl [HW]; · iexact HW
    isplitl [HB]; · iexact HB
    iintro ⟨H0, H1, H2, ⟨%e3, H3⟩, HW, HB⟩
    isplitl [HW HB Hg]
    · isplitl [HW HB]
      · isplitl [HW]; · iexact HW
        iexact HB
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverStream_out c _ _ _ _ _ _ _ _ _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HW, HB⟩, Hg⟩
  isplitl [HW HB]
  · isplitl [HW]
    · iexists _; iexact HW
    iexists _; iexact HB
  iexact Hg

theorem hout (c : Dev nD) : (dats m 0 c).Φ (Fin.last cfg0.N) ⊢ Pipeline.ΦA spec0 c :=
  Phi_out m c _ (by rw [Fin.val_last]; have : cfg0.N = 4 := N_0; omega)

/-! ## The run and the frame -/

set_option backward.isDefEq.respectTransparency.types false in
/-- From any memory with zero counters every weakly fair execution of the program terminates, and every final state has
    every array of the call at what the proof data compute and every other buffer as the call found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frm

end
-- ==== Proof.IdealPieces.lean ====
/-
  What the body's runs leave, as the body's own arithmetic applied to what it loaded.

  At the first point the first scratch buffer ends at the folded-matrix payload of two row ranges of the packed weights
  (rows 512 to 767 and rows 0 to 511), the second at the folded-offset payload of three row ranges (rows 512 to 767,
  768 to 775, 776 to 783), and the output's buffer at the output payload of the row block, those two values, and two row
  ranges of the packed output weights (rows 0 to 255 and 256 to 263).  At a later point the output's buffer ends at the
  same output payload of the row block and whatever the scratch buffers held.
-/
import proofs.«170034_g50646254354566_cont_8to1c4_339_31_alg».proof.Proof.IdealFrame
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- The row ranges of the packed arrays the body loads. -/
abbrev rW1 : Rect S784x256 := Rect.unit (s := S784x256) ![512, 0] S256x256.size inb_S784x256_S256x256_512_0
abbrev rWp : Rect S784x256 := Rect.unit (s := S784x256) ![0, 0] S512x256.size inb_S784x256_S512x256_0_0
abbrev rBp : Rect S784x256 := Rect.unit (s := S784x256) ![768, 0] S8x256.size inb_S784x256_S8x256_768_0
abbrev rB1 : Rect S784x256 := Rect.unit (s := S784x256) ![776, 0] S8x256.size inb_S784x256_S8x256_776_0
abbrev rW2 : Rect S264x16 := Rect.unit (s := S264x16) ![0, 0] S256x16.size inb_S264x16_S256x16_0_0
abbrev rB2 : Rect S264x16 := Rect.unit (s := S264x16) ![256, 0] S8x16.size inb_S264x16_S8x16_256_0

/-- The folded matrix as the body computes it from the packed weights' block. -/
def foldedW (x1 : Vec F S784x256 .f32) : Vec F S512x256 .f32 := k0_pay2 (View.ld x1 rW1) (View.ld x1 rWp)
/-- The folded offset as the body computes it from the packed weights' block. -/
def foldedB (x1 : Vec F S784x256 .f32) : Vec F S1x256 .f32 := k0_pay3 (View.ld x1 rW1) (View.ld x1 rBp) (View.ld x1 rB1)
/-- A point's output block from its row block, the scratch contents and the packed output weights' block. -/
def outBlock (x0 : Vec F S4096x512 .f32) (xW : Vec F S512x256 .f32) (xB : Vec F S1x256 .f32) (x2 : Vec F S264x16 .f32) : Vec F S4096x16 .f32 :=
  k0_pay4 x0 xW xB (View.ld x2 rW2) (View.ld x2 rB2)

theorem scWFold_eq (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) :
    scWFold c i arg1 harg1 arg2 harg2 arg3 harg3 arg4 harg4 arg5 harg5 arg6 harg6 hc x0 x1 x2 = foldedW x1 := by
  unfold scWFold
  rw [View.read_writes_eq_canon _ _ _ (coverFold_W c i arg1 harg1 arg2 harg2 arg3 harg3 arg4 harg4 arg5 harg5 arg6 harg6 hc x0 x1 x2)]
  unfold runFold
  dsimp only
  sl_unfold_words
  rw [View.canon_unit_zero hz2]
  simp only [View.readAt_eq_ld, harg2.read_unread]
  rfl

theorem scBFold_eq (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) :
    scBFold c i arg1 harg1 arg2 harg2 arg3 harg3 arg4 harg4 arg5 harg5 arg6 harg6 hc x0 x1 x2 = foldedB x1 := by
  unfold scBFold
  rw [View.read_writes_eq_canon _ _ _ (coverFold_B c i arg1 harg1 arg2 harg2 arg3 harg3 arg4 harg4 arg5 harg5 arg6 harg6 hc x0 x1 x2)]
  unfold runFold
  dsimp only
  sl_unfold_words
  rw [View.canon_unit_zero hz2]
  simp only [View.readAt_eq_ld, harg2.read_unread]
  rfl

theorem outFold_eq (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : isFirst i)
    (x0 : Vec F S4096x512 .f32) (x1 : Vec F S784x256 .f32) (x2 : Vec F S264x16 .f32) :
    outFold c i arg1 harg1 arg2 harg2 arg3 harg3 arg4 harg4 arg5 harg5 arg6 harg6 hc x0 x1 x2 = outBlock x0 (foldedW x1) (foldedB x1) x2 := by
  unfold outFold
  rw [View.read_writes_eq_canon _ _ _ (coverFold_out c i arg1 harg1 arg2 harg2 arg3 harg3 arg4 harg4 arg5 harg5 arg6 harg6 hc x0 x1 x2)]
  unfold runFold
  dsimp only
  sl_unfold_words
  rw [View.canon_unit_zero hz2]
  simp only [View.readAt_eq_ld, harg1.read_unread, harg2.read_unread, harg3.read_unread, View.ld_unit_zero (S := S4096x512) hz2,
    View.readCov_unit_zero (S := S512x256) _ hz2, View.readCov_unit_zero (S := S1x256) _ hz2]
  rfl

theorem outStream_eq (c : Dev nD) (i : grid0.Coords) (arg1 : Memref sig .tc .vmem S4096x512 .f32) (harg1 : arg1.IsWhole) (arg2 : Memref sig .tc .vmem S784x256 .f32) (harg2 : arg2.IsWhole) (arg3 : Memref sig .tc .vmem S264x16 .f32) (harg3 : arg3.IsWhole) (arg4 : Memref sig .tc .vmem S4096x16 .f32) (harg4 : arg4.IsWhole) (arg5 : Memref sig .tc .vmem S512x256 .f32) (harg5 : arg5.IsWhole) (arg6 : Memref sig .tc .vmem S1x256 .f32) (harg6 : arg6.IsWhole) (hc : ¬isFirst i)
    (x0 : Vec F S4096x512 .f32) (x1 : Vec F S784x256 .f32) (x2 : Vec F S264x16 .f32) (xW : Vec F S512x256 .f32) (xB : Vec F S1x256 .f32) :
    outStream c i arg1 harg1 arg2 harg2 arg3 harg3 arg4 harg4 arg5 harg5 arg6 harg6 hc x0 x1 x2 xW xB = outBlock x0 xW xB x2 := by
  unfold outStream
  rw [View.read_writes_eq_canon _ _ _ (coverStream_out c i arg1 harg1 arg2 harg2 arg3 harg3 arg4 harg4 arg5 harg5 arg6 harg6 hc x0 x1 x2 xW xB)]
  unfold runStream
  dsimp only
  sl_unfold_words
  rw [View.canon_unit_zero hz2]
  simp only [View.readAt_eq_ld, harg1.read_unread, harg3.read_unread, harg5.read_unread, harg6.read_unread, View.ld_unit_zero (S := S4096x512) hz2,
    View.ld_unit_zero (S := S512x256) hz2, View.ld_unit_zero (S := S1x256) hz2]
  rfl

end Cert.KernelIdeal.Frm

end
-- ==== Proof.LibNary3.lean ====
/- A straight line's result lemma for a host operation over a LITERAL family of three references (a three-piece
   concatenate): what the operation leaves at its own result buffer, with each operand's contents read AT ITS OWN
   REFERENCE, in the shape of the library's lemma for four references; and the one-pass computation of a line's
   results that uses it. General: nothing here names a program. -/
import Idealize.ShloMosaic.Lib.StableHlo.Run

noncomputable section

namespace Idealize.ShloMosaic.StableHlo

variable {τ : Topo} {sig : RefSig} {Val : EltTy → Type}

section Nary3

variable {x a b y : Ref sig .tc}

/-- `nary` over a literal family of three references: the result with each operand's contents at its own reference —
    `Fin.cons (F ↑x) (Fin.cons (F ↑a) (Fin.cons (F ↑b) _))` in place of `fun k => F ↑(![x, a, b] k)` —, so that the
    operands' contents can go on being rewritten (under the binder the reference `![x, a, b] k` is no literal). The
    function applied to it reads operand `k` by `Fin.cons` at the literal `k`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- `nary3_result` for `simp`: the result reference un-indexed, as the library's primed lemmas are. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Nary3

/-- The buffers after a literal line of operations, at one literal reference, as ONE `simp only` pass: the library's
    one-pass computation with a three-reference family read by `nary3_result'` (and no lemma for a family under a binder). -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- The buffers after two lines run one after the other: the second line's, from the first line's. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

end Idealize.ShloMosaic.StableHlo

end
-- ==== Proof.IdealHostStage.lean ====
/-
  What the host's packing lines leave in the two packed arrays, row by row.

  The [784, 256] array is the concatenation along the rows of: the first matrix (rows 0 to 511), the second matrix
  (rows 512 to 767), the first offset as one row (row 768), seven zero rows, the second offset as one row (row 776),
  seven zero rows.  The [264, 16] array is the last matrix (rows 0 to 255), its offset as one row (row 256), seven
  zero rows.  A concatenation read at an index is the piece whose span of rows holds the index's row, read at the
  row less the rows before the piece; a [n] vector reshaped to [1, n] read at (0, j) is the vector at j.
-/
import proofs.«170034_g50646254354566_cont_8to1c4_339_31_alg».proof.Proof.IdealEntry
import proofs.«170034_g50646254354566_cont_8to1c4_339_31_alg».proof.Proof.LibNary3
import Idealize.ShloMosaic.Lib.StableHlo.Run
import Idealize.ShloMosaic.Lib.Pipeline.Value
import Idealize.ShloMosaic.Lib.ValueIdx
import Idealize.ShloMosaic.Lib.ValueLayout

noncomputable section

namespace Idealize.ShloMosaic.StableHlo

variable {τ : Topo} {sig : RefSig} {Val : EltTy → Type}

section Nary6

variable {x a b c d e y : Ref sig .tc}

/-- An operation over a literal family of six references: the result with each operand's contents read at its own
    reference, so that the operands' contents can go on being computed. -/
theorem nary6_result
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) := by
  rw [nary_result]; congr 1; funext k; fin_cases k <;> rfl

/-- The same with the result reference un-indexed, for one rewriting pass. -/
theorem nary6_result'
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) :=
  nary6_result f hxs hy F

end Nary6

/-- The buffers after a literal line of operations, at one literal reference, as one rewriting pass that reads a
    family of three or of six references at the references themselves. -/
macro "after_results_simp6" : tactic =>
  `(tactic| (simp (disch := decide) only [after_cons, after_nil,
      nullary_result', unary_result', binary_result', ternary_result', quaternary_result', reshape_result', nary4_result', nary3_result',
      nary6_result', unaryIndexed_result', binaryIndexed_result',
      nullary_result_ne', unary_result_ne', binary_result_ne', ternary_result_ne', quaternary_result_ne', reshape_result_ne',
      nary_result_ne', unaryIndexed_result_ne', binaryIndexed_result_ne']))

/-- The same computation one rewrite at a time, which also reaches the operands' contents inside a family read at
    its references. -/
macro "after_results_rw6" : tactic =>
  `(tactic| (repeat (first
               | rw [nullary_result] | rw [unary_result] | rw [reshape_result] | rw [nary6_result] | rw [nary3_result]
               | (rw [nullary_result_ne]; rotate_left; decide)
               | (rw [unary_result_ne]; rotate_left; decide)
               | (rw [reshape_result_ne]; rotate_left; decide)
               | (rw [nary_result_ne]; rotate_left; decide))))

end Idealize.ShloMosaic.StableHlo

namespace Cert.KernelIdeal.HostStage

open Cert.KernelIdeal Cert.KernelIdeal.Gen Cert.KernelIdeal.Frm
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-! ## The two packed arrays as concatenations -/

/-- The packed weights are the six pieces laid one below the other. -/
theorem V_main_v3 (c : Dev nD) :
    (V m c main_v3 : FVec F S784x256 .f32) = concatenate S784x256 0
      [⟨S512x256, (m ((c : Thread nD τ).loc main_arg1) : FVec F S512x256 .f32)⟩,
       ⟨S256x256, (m ((c : Thread nD τ).loc main_arg3) : FVec F S256x256 .f32)⟩,
       ⟨S1x256, shapeCast S1x256 (m ((c : Thread nD τ).loc main_arg2) : FVec F S256 .f32) shapeCasts_S256_S1x256⟩,
       ⟨S7x256, broadcastInDim S7x256 ![] bcast_S_S7x256 (constant S_ .f32 0x00000000#32 : FVec F S_ .f32)⟩,
       ⟨S1x256, shapeCast S1x256 (m ((c : Thread nD τ).loc main_arg4) : FVec F S256 .f32) shapeCasts_S256_S1x256⟩,
       ⟨S7x256, broadcastInDim S7x256 ![] bcast_S_S7x256 (constant S_ .f32 0x00000000#32 : FVec F S_ .f32)⟩]
      concatenates_S512x256_S256x256_S1x256_S7x256_S1x256_S7x256_S784x256_d0 := by
  show StableHlo.after hostOps0 (fun b => m (c, b)) (Proc.devRef .tc main_v3) = _
  dsimp only [hostOps0]
  after_results_simp6
  after_results_rw6
  rfl

/-- The packed output weights are the three pieces laid one below the other. -/
theorem V_main_v6 (c : Dev nD) :
    (V m c main_v6 : FVec F S264x16 .f32) = concatenate S264x16 0
      [⟨S256x16, (m ((c : Thread nD τ).loc main_arg5) : FVec F S256x16 .f32)⟩,
       ⟨S1x16, shapeCast S1x16 (m ((c : Thread nD τ).loc main_arg6) : FVec F S16 .f32) shapeCasts_S16_S1x16⟩,
       ⟨S7x16, broadcastInDim S7x16 ![] bcast_S_S7x16 (constant S_ .f32 0x00000000#32 : FVec F S_ .f32)⟩]
      concatenates_S256x16_S1x16_S7x16_S264x16_d0 := by
  show StableHlo.after hostOps0 (fun b => m (c, b)) (Proc.devRef .tc main_v6) = _
  dsimp only [hostOps0]
  after_results_simp6
  after_results_rw6
  rfl

/-! ## A vector as one row -/

/-- An `[n]` vector cast to the row `[1, n]` reads, at `(0, j)`, the vector at `j`. -/
theorem shapeCast_n_1n_apply {α : Type} {n : ℕ} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_apply x h _ _ (by
    have hu : u.val = 0 := by omega
    rw [Shape.rowMajor_val_two, Shape.rowMajor_val_one]
    show j.val = u.val * n + j.val
    rw [hu]; omega)

/-! ## The rows -/

/-- Rows 0 to 511 of the packed weights are the first matrix. -/
theorem packedW_Wp (c : Dev nD) (l : Fin 512) (j : Fin 256) :
    (V m c main_v3 : FVec F S784x256 .f32) (ix2 (⟨l.val, by omega⟩ : Fin 784) j) = (m ((c : Thread nD τ).loc main_arg1) : FVec F S512x256 .f32) (ix2 l j) := by
  refine (congrFun (V_main_v3 m c) _).trans ?_
  refine concatenate_apply_piece (t := S784x256) 0 _ _ _ 0 (by simp) S512x256 _ rfl rfl 0 rfl (ix2 l j) (fun b hb => ?_) ?_
  · match b, hb with
    | ⟨0, _⟩, hb => exact absurd rfl hb
    | ⟨1, _⟩, _ => rfl
  · show 0 + l.val = l.val
    omega

/-- Rows 512 to 767 are the second matrix. -/
theorem packedW_W1 (c : Dev nD) (r : Fin 256) (j : Fin 256) :
    (V m c main_v3 : FVec F S784x256 .f32) (ix2 (⟨512 + r.val, by omega⟩ : Fin 784) j) = (m ((c : Thread nD τ).loc main_arg3) : FVec F S256x256 .f32) (ix2 r j) := by
  refine (congrFun (V_main_v3 m c) _).trans ?_
  refine concatenate_apply_piece (t := S784x256) 0 _ _ _ 1 (by simp) S256x256 _ rfl rfl 512 (by simp) (ix2 r j) (fun b hb => ?_) ?_
  · match b, hb with
    | ⟨0, _⟩, hb => exact absurd rfl hb
    | ⟨1, _⟩, _ => rfl
  · rfl

/-- Row 768 is the first offset. -/
theorem packedW_bp (c : Dev nD) (j : Fin 256) :
    (V m c main_v3 : FVec F S784x256 .f32) (ix2 (⟨768, by omega⟩ : Fin 784) j) = (m ((c : Thread nD τ).loc main_arg2) : FVec F S256 .f32) (ix1 j) := by
  refine (congrFun (V_main_v3 m c) _).trans ?_
  refine (concatenate_apply_piece (t := S784x256) 0 _ _ _ 2 (by simp) S1x256 _ rfl rfl 768 (by simp) (ix2 (0 : Fin 1) j) (fun b hb => ?_) ?_).trans
    (shapeCast_n_1n_apply _ _ _ _)
  · match b, hb with
    | ⟨0, _⟩, hb => exact absurd rfl hb
    | ⟨1, _⟩, _ => rfl
  · rfl

/-- Row 776 is the second offset. -/
theorem packedW_b1 (c : Dev nD) (j : Fin 256) :
    (V m c main_v3 : FVec F S784x256 .f32) (ix2 (⟨776, by omega⟩ : Fin 784) j) = (m ((c : Thread nD τ).loc main_arg4) : FVec F S256 .f32) (ix1 j) := by
  refine (congrFun (V_main_v3 m c) _).trans ?_
  refine (concatenate_apply_piece (t := S784x256) 0 _ _ _ 4 (by simp) S1x256 _ rfl rfl 776 (by simp) (ix2 (0 : Fin 1) j) (fun b hb => ?_) ?_).trans
    (shapeCast_n_1n_apply _ _ _ _)
  · match b, hb with
    | ⟨0, _⟩, hb => exact absurd rfl hb
    | ⟨1, _⟩, _ => rfl
  · rfl

/-- Rows 0 to 255 of the packed output weights are the last matrix. -/
theorem packedO_W2 (c : Dev nD) (k : Fin 256) (o : Fin 16) :
    (V m c main_v6 : FVec F S264x16 .f32) (ix2 (⟨k.val, by omega⟩ : Fin 264) o) = (m ((c : Thread nD τ).loc main_arg5) : FVec F S256x16 .f32) (ix2 k o) := by
  refine (congrFun (V_main_v6 m c) _).trans ?_
  refine concatenate_apply_piece (t := S264x16) 0 _ _ _ 0 (by simp) S256x16 _ rfl rfl 0 rfl (ix2 k o) (fun b hb => ?_) ?_
  · match b, hb with
    | ⟨0, _⟩, hb => exact absurd rfl hb
    | ⟨1, _⟩, _ => rfl
  · show 0 + k.val = k.val
    omega

/-- Row 256 is the last offset. -/
theorem packedO_b2 (c : Dev nD) (o : Fin 16) :
    (V m c main_v6 : FVec F S264x16 .f32) (ix2 (⟨256, by omega⟩ : Fin 264) o) = (m ((c : Thread nD τ).loc main_arg6) : FVec F S16 .f32) (ix1 o) := by
  refine (congrFun (V_main_v6 m c) _).trans ?_
  refine (concatenate_apply_piece (t := S264x16) 0 _ _ _ 1 (by simp) S1x16 _ rfl rfl 256 (by simp) (ix2 (0 : Fin 1) o) (fun b hb => ?_) ?_).trans
    (shapeCast_n_1n_apply _ _ _ _)
  · match b, hb with
    | ⟨0, _⟩, hb => exact absurd rfl hb
    | ⟨1, _⟩, _ => rfl
  · rfl

end Cert.KernelIdeal.HostStage

end
-- ==== Proof.MlpSpec.lean ====
/-
  The mathematics of the two programs, over the extended reals, with no program in sight.

  The reference applies three affine layers to each row of `x`: first `x · Wp + bp`, then `· W1 + b1`, a clamp at
  zero from below, then `· W2 + b2`.  The kernel applies the first two layers as ONE affine layer whose matrix is
  `Wp · W1` and whose offset is `bp · W1 + b1`.  The two agree because matrix multiplication is associative and
  distributes over the offset:
    ∑ j, (∑ l, x i l · Wp l j + bp j) · W1 j k + b1 k  =  ∑ l, x i l · (∑ j, Wp l j · W1 j k) + (∑ j, bp j · W1 j k + b1 k),
  which needs every entry to be a real number (on the extended reals distributivity fails at the infinities).
  The last layer is the same function on both sides, so only the hidden activations need to be compared.
-/
import Idealize.ShloMosaic.PureOps.Ideal.Laws
import Idealize.ShloMosaic.Lib.ValueIdx

noncomputable section

namespace Cert.MlpSpec

open Idealize.ShloMosaic Idealize.ShloMosaic.ValueIdx
open scoped BigOperators

/-- Every entry of the array is a real number (neither infinity). -/
def IsReal {s : Shape} (a : s.Idx → EReal) : Prop := ∀ i, ∃ r : ℝ, a i = (r : EReal)

/-- The first layer at row `i`, column `j`: `x · Wp + bp`. -/
def proj (x : (⟨2, ![16384, 512]⟩ : Shape).Idx → EReal) (Wp : (⟨2, ![512, 256]⟩ : Shape).Idx → EReal)
    (bp : (⟨1, ![256]⟩ : Shape).Idx → EReal) (i : Fin 16384) (j : Fin 256) : EReal :=
  (∑ l : Fin 512, x (ix2 i l) * Wp (ix2 l j)) + bp (ix1 j)

/-- The reference's hidden activation before the clamp: the second layer applied to the first. -/
def hiddenRef (x : (⟨2, ![16384, 512]⟩ : Shape).Idx → EReal) (Wp : (⟨2, ![512, 256]⟩ : Shape).Idx → EReal)
    (bp : (⟨1, ![256]⟩ : Shape).Idx → EReal) (W1 : (⟨2, ![256, 256]⟩ : Shape).Idx → EReal)
    (b1 : (⟨1, ![256]⟩ : Shape).Idx → EReal) (i : Fin 16384) (k : Fin 256) : EReal :=
  (∑ j : Fin 256, proj x Wp bp i j * W1 (ix2 j k)) + b1 (ix1 k)

/-- The folded matrix `Wp · W1`. -/
def foldedW (Wp : (⟨2, ![512, 256]⟩ : Shape).Idx → EReal) (W1 : (⟨2, ![256, 256]⟩ : Shape).Idx → EReal)
    (l : Fin 512) (k : Fin 256) : EReal :=
  ∑ j : Fin 256, Wp (ix2 l j) * W1 (ix2 j k)

/-- The folded offset `bp · W1 + b1`. -/
def foldedB (bp : (⟨1, ![256]⟩ : Shape).Idx → EReal) (W1 : (⟨2, ![256, 256]⟩ : Shape).Idx → EReal)
    (b1 : (⟨1, ![256]⟩ : Shape).Idx → EReal) (k : Fin 256) : EReal :=
  (∑ j : Fin 256, bp (ix1 j) * W1 (ix2 j k)) + b1 (ix1 k)

/-- The kernel's hidden activation before the clamp: the folded layer applied to `x`. -/
def hiddenKer (x : (⟨2, ![16384, 512]⟩ : Shape).Idx → EReal) (Wp : (⟨2, ![512, 256]⟩ : Shape).Idx → EReal)
    (bp : (⟨1, ![256]⟩ : Shape).Idx → EReal) (W1 : (⟨2, ![256, 256]⟩ : Shape).Idx → EReal)
    (b1 : (⟨1, ![256]⟩ : Shape).Idx → EReal) (i : Fin 16384) (k : Fin 256) : EReal :=
  (∑ l : Fin 512, x (ix2 i l) * foldedW Wp W1 l k) + foldedB bp W1 b1 k

/-- The last layer on a hidden activation `h`: clamp at the f32 zero word from below, then `· W2 + b2`. -/
def logits (h : Fin 16384 → Fin 256 → EReal) (W2 : (⟨2, ![256, 16]⟩ : Shape).Idx → EReal)
    (b2 : (⟨1, ![16]⟩ : Shape).Idx → EReal) (i : Fin 16384) (o : Fin 16) : EReal :=
  (∑ k : Fin 256, max (h i k) (Ideal.ofBits .f32 0x00000000#32) * W2 (ix2 k o)) + b2 (ix1 o)

/-- A finite sum of real numbers, read in the extended reals, is the sum of the readings. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, EReal.coe_add, ih]

/-- On real entries the folded layer is the two layers: associativity of the matrix product and distributivity
    over the first offset. -/
theorem hiddenKer_eq_hiddenRef (x : (⟨2, ![16384, 512]⟩ : Shape).Idx → EReal) (Wp : (⟨2, ![512, 256]⟩ : Shape).Idx → EReal)
    (bp : (⟨1, ![256]⟩ : Shape).Idx → EReal) (W1 : (⟨2, ![256, 256]⟩ : Shape).Idx → EReal)
    (b1 : (⟨1, ![256]⟩ : Shape).Idx → EReal)
    (hx : IsReal x) (hWp : IsReal Wp) (hbp : IsReal bp) (hW1 : IsReal W1) (hb1 : IsReal b1) (i : Fin 16384) (k : Fin 256) :
    hiddenKer x Wp bp W1 b1 i k = hiddenRef x Wp bp W1 b1 i k := by
  classical
  choose rx hx using hx
  choose rWp hWp using hWp
  choose rbp hbp using hbp
  choose rW1 hW1 using hW1
  unfold hiddenKer hiddenRef foldedW foldedB proj
  simp only [hx, hWp, hbp, hW1]
  simp only [← EReal.coe_mul, coe_sum, ← EReal.coe_add]
  rw [← add_assoc, ← EReal.coe_add]
  congr 2
  -- the identity over the reals
  have hA : (∑ l : Fin 512, rx (ix2 i l) * ∑ j : Fin 256, rWp (ix2 l j) * rW1 (ix2 j k))
      = ∑ j : Fin 256, (∑ l : Fin 512, rx (ix2 i l) * rWp (ix2 l j)) * rW1 (ix2 j k) := by
    simp only [Finset.mul_sum, Finset.sum_mul]
    rw [Finset.sum_comm]
    refine Finset.sum_congr rfl fun j _ => Finset.sum_congr rfl fun l _ => ?_
    ring
  rw [hA, ← Finset.sum_add_distrib]
  refine Finset.sum_congr rfl fun j _ => ?_
  ring

end Cert.MlpSpec

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.IdealPayload.lean ====
/-
  The kernel body's three stored values, entry by entry, over the extended reals.

  The folded matrix is the product of the first two weight matrices; the folded offset is the first offset row times
  the second matrix plus the second offset row; a point's output block is the clamp at zero of (rows · folded matrix +
  folded offset), times the last matrix, plus the last offset row.  A matrix product into a zero accumulator read at
  an entry is the textbook sum over the contracted axis; the offsets are rows repeated along the rows; identity
  reshapes and a one-row slice at offset zero read through.
-/
import proofs.«170034_g50646254354566_cont_8to1c4_339_31_alg».proof.Proof.Gen.KernelIdeal.Skeleton
import proofs.«170034_g50646254354566_cont_8to1c4_339_31_alg».proof.Proof.MlpSpec
import proofs.«170034_g50646254354566_cont_8to1c4_339_31_alg».proof.Proof.LibPlainDot
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open scoped BigOperators

/-- A matrix product into the zero accumulator, with the plain dimension numbers, read at the entry (p, q): the sum
    over the contracted axis of the left entry (p, k) times the right entry (k, q). -/
theorem mm_apply {M K N : Nat}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (a : FVec Ideal (⟨2, ![M, K]⟩ : Shape) .f32) (b : FVec Ideal (⟨2, ![K, N]⟩ : Shape) .f32) (p : Fin M) (q : Fin N) :
    matmul D none a b (constant (⟨2, ![M, N]⟩ : Shape) .f32 0x00000000#32) (ix2 p q) = ∑ k : Fin K, a (ix2 p k) * b (ix2 k q) :=
  PlainDot.matmul_zero_apply D h1 h2 h3 h4 h5 h6 none a b p q

/-- The one-row slice at offset zero of an eight-row group reads, at (0, k), the group's row 0 at k. -/
theorem row0_apply {n : Nat} (v : FVec Ideal (⟨2, ![8, n]⟩ : Shape) .f32)
    (h : (⟨2, ![8, n]⟩ : Shape).Slices ![0, 0] ⟨2, ![1, n]⟩) (k : Fin n) :
    extractStridedSlice (⟨2, ![1, n]⟩ : Shape) ![0, 0] v h (ix2 (0 : Fin 1) k) = v (ix2 (0 : Fin 8) k) :=
  slice2_axis0_apply 0 v h (0 : Fin 1) k (0 : Fin 8) rfl

/-- The folded matrix at (l, k): the sum over j of the first matrix at (l, j) times the second at (j, k).
    (`w1` is the loaded second matrix, `wp` the loaded first matrix.) -/
theorem foldW_apply (w1 : FVec Ideal S256x256 .f32) (wp : FVec Ideal S512x256 .f32) (l : Fin 512) (k : Fin 256) :
    k0_pay2 (F := Ideal) w1 wp (ix2 l k) = ∑ j : Fin 256, wp (ix2 l j) * w1 (ix2 j k) := by
  unfold k0_pay2 k0_pay1
  simp only [shapeCast_self]
  exact mm_apply dot_S512x256_S256x256_S512x256_1_0_0_1_n_n rfl rfl rfl rfl rfl rfl wp w1 l k

/-- The folded offset at (0, k): the sum over j of the first offset row at j times the second matrix at (j, k), plus
    the second offset row at k.  (`rbp`, `rb1` are the loaded eight-row groups whose row 0 is the offset.) -/
theorem foldB_apply (w1 : FVec Ideal S256x256 .f32) (rbp : FVec Ideal S8x256 .f32) (rb1 : FVec Ideal S8x256 .f32) (k : Fin 256) :
    k0_pay3 (F := Ideal) w1 rbp rb1 (ix2 (0 : Fin 1) k)
      = (∑ j : Fin 256, rbp (ix2 (0 : Fin 8) j) * w1 (ix2 j k)) + rb1 (ix2 (0 : Fin 8) k) := by
  unfold k0_pay3 k0_pay1
  simp only [shapeCast_self]
  rw [addf_apply, mm_apply dot_S1x256_S256x256_S1x256_1_0_0_1_n_n rfl rfl rfl rfl rfl rfl, row0_apply]
  refine congrArg (· + rb1 (ix2 (0 : Fin 8) k)) ?_
  refine Finset.sum_congr rfl fun j _ => ?_
  rw [row0_apply]

/-- A point's output block at (r, o): the last layer on the clamped folded layer of the block's row r.
    (`xb` the block of rows, `we` the folded matrix, `be` the folded offset, `w2` the last matrix, `rb2` the
    eight-row group whose row 0 is the last offset.) -/
theorem out_apply (xb : FVec Ideal S4096x512 .f32) (we : FVec Ideal S512x256 .f32) (be : FVec Ideal S1x256 .f32)
    (w2 : FVec Ideal S256x16 .f32) (rb2 : FVec Ideal S8x16 .f32) (r : Fin 4096) (o : Fin 16) :
    k0_pay4 (F := Ideal) xb we be w2 rb2 (ix2 r o)
      = (∑ k : Fin 256, max ((∑ l : Fin 512, xb (ix2 r l) * we (ix2 l k)) + be (ix2 (0 : Fin 1) k)) (Ideal.ofBits .f32 0x00000000#32)
            * w2 (ix2 k o)) + rb2 (ix2 (0 : Fin 8) o) := by
  unfold k0_pay4
  simp only [shapeCast_self]
  rw [addf_apply, mm_apply dot_S4096x256_S256x16_S4096x16_1_0_0_1_n_n rfl rfl rfl rfl rfl rfl, broadcastTo_1b_ab_apply,
    row0_apply]
  refine congrArg (· + rb2 (ix2 (0 : Fin 8) o)) ?_
  refine Finset.sum_congr rfl fun k _ => ?_
  rw [maximumf_apply, addf_apply, mm_apply dot_S4096x512_S512x256_S4096x256_1_0_0_1_n_n rfl rfl rfl rfl rfl rfl,
    broadcastTo_1b_ab_apply, broadcast_apply]
  rfl

end Cert.KernelIdeal.Payload

end
-- ==== Proof.IdealBlockEntry.lean ====
/-
  A point's output block, entry by entry, from the blocks the point stages.

  The output block's entry (r, o) is the last layer applied to the clamped folded layer of row r of the row block.  The
  folded matrix's entry (l, k) is the sum over j of the packed weights at (l, j) times the packed weights at (512 + j, k);
  the folded offset's entry k is the sum over j of the packed weights at (768, j) times those at (512 + j, k), plus
  those at (776, k); the last matrix is rows 0 to 255 of the packed output weights and its offset is their row 256.
  A load through a rectangle of unit stride reads the array at the rectangle's offset plus the index.
-/
import proofs.«170034_g50646254354566_cont_8to1c4_339_31_alg».proof.Proof.IdealPieces
import proofs.«170034_g50646254354566_cont_8to1c4_339_31_alg».proof.Proof.IdealPayload

noncomputable section

namespace Cert.KernelIdeal.BlockEntry

open Cert.KernelIdeal Cert.KernelIdeal.Gen Cert.KernelIdeal.Frm Idealize.ShloMosaic Idealize.ShloMosaic.ValueIdx
open scoped BigOperators

/-- The second matrix's row range of the packed weights at (j, k) is the packed weights at (512 + j, k). -/
theorem ld_rW1 (x1 : FVec Ideal S784x256 .f32) (j k : Fin 256) :
    (View.ld (Val := Elt Ideal) (e' := .f32) x1 rW1 : FVec Ideal S256x256 .f32) (ix2 j k) = x1 (ix2 (⟨512 + j.val, by omega⟩ : Fin 784) k) :=
  congrArg x1 (funext fun a => Fin.ext (by
    match a with
    | ⟨0, _⟩ => show 512 + 1 * j.val = 512 + j.val; omega
    | ⟨1, _⟩ => show 0 + 1 * k.val = k.val; omega))

/-- The first matrix's row range of the packed weights at (l, j) is the packed weights at (l, j). -/
theorem ld_rWp (x1 : FVec Ideal S784x256 .f32) (l : Fin 512) (j : Fin 256) :
    (View.ld (Val := Elt Ideal) (e' := .f32) x1 rWp : FVec Ideal S512x256 .f32) (ix2 l j) = x1 (ix2 (⟨l.val, by omega⟩ : Fin 784) j) :=
  congrArg x1 (funext fun a => Fin.ext (by
    match a with
    | ⟨0, _⟩ => show 0 + 1 * l.val = l.val; omega
    | ⟨1, _⟩ => show 0 + 1 * j.val = j.val; omega))

/-- The first offset's eight-row group of the packed weights at (0, j) is the packed weights at (768, j). -/
theorem ld_rBp (x1 : FVec Ideal S784x256 .f32) (j : Fin 256) :
    (View.ld (Val := Elt Ideal) (e' := .f32) x1 rBp : FVec Ideal S8x256 .f32) (ix2 (0 : Fin 8) j) = x1 (ix2 (⟨768, by omega⟩ : Fin 784) j) :=
  congrArg x1 (funext fun a => Fin.ext (by
    match a with
    | ⟨0, _⟩ => show 768 + 1 * (0 : Fin 8).val = 768; rfl
    | ⟨1, _⟩ => show 0 + 1 * j.val = j.val; omega))

/-- The second offset's eight-row group of the packed weights at (0, k) is the packed weights at (776, k). -/
theorem ld_rB1 (x1 : FVec Ideal S784x256 .f32) (k : Fin 256) :
    (View.ld (Val := Elt Ideal) (e' := .f32) x1 rB1 : FVec Ideal S8x256 .f32) (ix2 (0 : Fin 8) k) = x1 (ix2 (⟨776, by omega⟩ : Fin 784) k) :=
  congrArg x1 (funext fun a => Fin.ext (by
    match a with
    | ⟨0, _⟩ => show 776 + 1 * (0 : Fin 8).val = 776; rfl
    | ⟨1, _⟩ => show 0 + 1 * k.val = k.val; omega))

/-- The last matrix's row range of the packed output weights at (k, o) is the packed output weights at (k, o). -/
theorem ld_rW2 (x2 : FVec Ideal S264x16 .f32) (k : Fin 256) (o : Fin 16) :
    (View.ld (Val := Elt Ideal) (e' := .f32) x2 rW2 : FVec Ideal S256x16 .f32) (ix2 k o) = x2 (ix2 (⟨k.val, by omega⟩ : Fin 264) o) :=
  congrArg x2 (funext fun a => Fin.ext (by
    match a with
    | ⟨0, _⟩ => show 0 + 1 * k.val = k.val; omega
    | ⟨1, _⟩ => show 0 + 1 * o.val = o.val; omega))

/-- The last offset's eight-row group of the packed output weights at (0, o) is the packed output weights at (256, o). -/
theorem ld_rB2 (x2 : FVec Ideal S264x16 .f32) (o : Fin 16) :
    (View.ld (Val := Elt Ideal) (e' := .f32) x2 rB2 : FVec Ideal S8x16 .f32) (ix2 (0 : Fin 8) o) = x2 (ix2 (⟨256, by omega⟩ : Fin 264) o) :=
  congrArg x2 (funext fun a => Fin.ext (by
    match a with
    | ⟨0, _⟩ => show 256 + 1 * (0 : Fin 8).val = 256; rfl
    | ⟨1, _⟩ => show 0 + 1 * o.val = o.val; omega))

/-- The output block at (r, o) in terms of the entries of the three staged blocks. -/
theorem outBlock_apply (x0 : FVec Ideal S4096x512 .f32) (x1 : FVec Ideal S784x256 .f32) (x2 : FVec Ideal S264x16 .f32)
    (r : Fin 4096) (o : Fin 16) :
    outBlock (F := Ideal) x0 (foldedW (F := Ideal) x1) (foldedB (F := Ideal) x1) x2 (ix2 r o)
      = (∑ k : Fin 256,
            max ((∑ l : Fin 512, x0 (ix2 r l) * (∑ j : Fin 256, x1 (ix2 (⟨l.val, by omega⟩ : Fin 784) j) * x1 (ix2 (⟨512 + j.val, by omega⟩ : Fin 784) k)))
                  + ((∑ j : Fin 256, x1 (ix2 (⟨768, by omega⟩ : Fin 784) j) * x1 (ix2 (⟨512 + j.val, by omega⟩ : Fin 784) k))
                      + x1 (ix2 (⟨776, by omega⟩ : Fin 784) k)))
                (Ideal.ofBits .f32 0x00000000#32)
              * x2 (ix2 (⟨k.val, by omega⟩ : Fin 264) o))
          + x2 (ix2 (⟨256, by omega⟩ : Fin 264) o) := by
  unfold outBlock foldedW foldedB
  refine (Payload.out_apply x0 _ _ _ _ r o).trans ?_
  refine congrArg₂ (· + ·) (Finset.sum_congr rfl fun k _ => ?_) (ld_rB2 x2 o)
  refine congrArg₂ (· * ·) ?_ (ld_rW2 x2 k o)
  refine congrArg (max · (Ideal.ofBits .f32 0x00000000#32)) ?_
  refine congrArg₂ (· + ·) (Finset.sum_congr rfl fun l _ => ?_) ?_
  · refine congrArg (x0 (ix2 r l) * ·) ?_
    refine (Payload.foldW_apply _ _ l k).trans ?_
    refine Finset.sum_congr rfl fun j _ => ?_
    exact congrArg₂ (· * ·) (ld_rWp x1 l j) (ld_rW1 x1 j k)
  · refine (Payload.foldB_apply _ _ _ k).trans ?_
    refine congrArg₂ (· + ·) (Finset.sum_congr rfl fun j _ => ?_) (ld_rB1 x1 k)
    exact congrArg₂ (· * ·) (ld_rBp x1 j) (ld_rW1 x1 j k)

end Cert.KernelIdeal.BlockEntry

end
-- ==== Proof.IdealValue.lean ====
/-
  The idealized kernel's result as one function of its seven arguments.

  The scratch buffers hold, at every point, the folded matrix and offset the first point computed from the packed
  weights; so the block every point writes back is the same function of that point's rows.  The packed arrays are
  staged whole (their one block is the array), and point `t` stages rows 4096·t to 4096·t + 4095 of the first
  argument and writes back the same rows of the result; the four blocks tile the result.  Entry (i, o) of the result is
  therefore the last layer applied to the clamped folded layer of row i.
-/
import proofs.«170034_g50646254354566_cont_8to1c4_339_31_alg».proof.Proof.IdealPieces
import proofs.«170034_g50646254354566_cont_8to1c4_339_31_alg».proof.Proof.IdealHostStage
import proofs.«170034_g50646254354566_cont_8to1c4_339_31_alg».proof.Proof.IdealBlockEntry
import proofs.«170034_g50646254354566_cont_8to1c4_339_31_alg».proof.Proof.MlpSpec
import Idealize.ShloMosaic.Lib.Pipeline.Value

set_option maxRecDepth 16384

noncomputable section

namespace Cert.KernelIdeal.KerValue

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The arguments and the staged blocks, at their literal types -/

abbrev aX (c : Dev nD) : FVec Ideal S16384x512 .f32 := m ((c : Thread nD τ).loc main_arg0)
abbrev aWp (c : Dev nD) : FVec Ideal S512x256 .f32 := m ((c : Thread nD τ).loc main_arg1)
abbrev aBp (c : Dev nD) : FVec Ideal S256 .f32 := m ((c : Thread nD τ).loc main_arg2)
abbrev aW1 (c : Dev nD) : FVec Ideal S256x256 .f32 := m ((c : Thread nD τ).loc main_arg3)
abbrev aB1 (c : Dev nD) : FVec Ideal S256 .f32 := m ((c : Thread nD τ).loc main_arg4)
abbrev aW2 (c : Dev nD) : FVec Ideal S256x16 .f32 := m ((c : Thread nD τ).loc main_arg5)
abbrev aB2 (c : Dev nD) : FVec Ideal S16 .f32 := m ((c : Thread nD τ).loc main_arg6)

abbrev xblk (c : Dev nD) (t : Fin cfg0.N) : FVec Ideal S4096x512 .f32 := iblk m c 0 t
abbrev wblk (c : Dev nD) (t : Fin cfg0.N) : FVec Ideal S784x256 .f32 := iblk m c 1 t
abbrev oblk (c : Dev nD) (t : Fin cfg0.N) : FVec Ideal S264x16 .f32 := iblk m c 2 t

/-- The two packed arrays as the call finds them. -/
def pW (c : Dev nD) : FVec Ideal S784x256 .f32 := V m c main_v3
def pO (c : Dev nD) : FVec Ideal S264x16 .f32 := V m c main_v6

theorem pW_Wp (c : Dev nD) (l : Fin 512) (j : Fin 256) : pW m c (ix2 (⟨l.val, by omega⟩ : Fin 784) j) = aWp m c (ix2 l j) :=
  HostStage.packedW_Wp m c l j
theorem pW_W1 (c : Dev nD) (r : Fin 256) (j : Fin 256) : pW m c (ix2 (⟨512 + r.val, by omega⟩ : Fin 784) j) = aW1 m c (ix2 r j) :=
  HostStage.packedW_W1 m c r j
theorem pW_bp (c : Dev nD) (j : Fin 256) : pW m c (ix2 (⟨768, by omega⟩ : Fin 784) j) = aBp m c (ix1 j) :=
  HostStage.packedW_bp m c j
theorem pW_b1 (c : Dev nD) (j : Fin 256) : pW m c (ix2 (⟨776, by omega⟩ : Fin 784) j) = aB1 m c (ix1 j) :=
  HostStage.packedW_b1 m c j
theorem pO_W2 (c : Dev nD) (k : Fin 256) (o : Fin 16) : pO m c (ix2 (⟨k.val, by omega⟩ : Fin 264) o) = aW2 m c (ix2 k o) :=
  HostStage.packedO_W2 m c k o
theorem pO_b2 (c : Dev nD) (o : Fin 16) : pO m c (ix2 (⟨256, by omega⟩ : Fin 264) o) = aB2 m c (ix1 o) :=
  HostStage.packedO_b2 m c o

/-- The result array: entry (i, o) is the last layer on the clamped folded layer of row i. -/
def outArr (c : Dev nD) : FVec Ideal S16384x16 .f32 := fun j =>
  MlpSpec.logits (MlpSpec.hiddenKer (aX m c) (aWp m c) (aBp m c) (aW1 m c) (aB1 m c)) (aW2 m c) (aB2 m c)
    ⟨(j 0).val, idx2_lt0 j⟩ ⟨(j 1).val, idx2_lt1 j⟩

theorem outArr_apply (c : Dev nD) (i : Fin 16384) (o : Fin 16) :
    outArr m c (ix2 i o) = MlpSpec.logits (MlpSpec.hiddenKer (aX m c) (aWp m c) (aBp m c) (aW1 m c) (aB1 m c)) (aW2 m c) (aB2 m c) i o := rfl

/-! ## The scratch buffers never change after the first point -/

theorem sc_at (c : Dev nD) : ∀ (n : ℕ) (hn : n < cfg0.N),
    (outsAt m c n hn).2.1 = foldedW (F := Ideal) (wblk m c t0_0) ∧ (outsAt m c n hn).2.2 = foldedB (F := Ideal) (wblk m c t0_0)
  | 0, hn => by
    rw [outsAt_first m c ⟨0, hn⟩ rfl]; dsimp only
    exact ⟨scWFold_eq c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scW (Memref.isWhole_whole _) scB (Memref.isWhole_whole _) _ (iblk m c 0 ⟨0, hn⟩) (iblk m c 1 ⟨0, hn⟩) (iblk m c 2 ⟨0, hn⟩),
      scBFold_eq c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scW (Memref.isWhole_whole _) scB (Memref.isWhole_whole _) _ (iblk m c 0 ⟨0, hn⟩) (iblk m c 1 ⟨0, hn⟩) (iblk m c 2 ⟨0, hn⟩)⟩
  | n + 1, hn => by
    rw [outsAt_later m c ⟨n + 1, hn⟩ (Nat.succ_ne_zero n)]; dsimp only
    exact sc_at c n _

/-- What every point leaves in the output window's buffer: one function of its row block. -/
theorem after3_eq (c : Dev nD) (t : Fin cfg0.N) :
    (dats m 0 c).after 3 t = outBlock (F := Ideal) (xblk m c t) (foldedW (F := Ideal) (wblk m c t0_0)) (foldedB (F := Ideal) (wblk m c t0_0)) (oblk m c t) := by
  rw [after_3]
  by_cases hz : t.val = 0
  · rw [outsAt_first m c t hz]; dsimp only
    have ht : t = t0_0 := Fin.ext hz
    rw [outFold_eq c (grid0.coords t) (ms_0 t) (hs_0 t) (ms_1 t) (hs_1 t) (ms_2 t) (hs_2 t) (ms_3 t) (hs_3 t) scW (Memref.isWhole_whole _) scB (Memref.isWhole_whole _) _ (iblk m c 0 t) (iblk m c 1 t) (iblk m c 2 t), ht]
  · rw [outsAt_later m c t hz]; dsimp only
    rw [(sc_at m c (t.val - 1) _).1, (sc_at m c (t.val - 1) _).2]
    exact outStream_eq c (grid0.coords t) (ms_0 t) (hs_0 t) (ms_1 t) (hs_1 t) (ms_2 t) (hs_2 t) (ms_3 t) (hs_3 t) scW (Memref.isWhole_whole _) scB (Memref.isWhole_whole _) _ (iblk m c 0 t) (iblk m c 1 t) (iblk m c 2 t) _ _

/-! ## The staged blocks read off the arrays -/

/-- The printed index maps, decided over the grid: the row windows move with the point, the packed arrays stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem wblk_apply (c : Dev nD) (t : Fin cfg0.N) (a : Fin 784) (b : Fin 256) :
    wblk m c t (ix2 a b) = pW m c (ix2 a b) := by
  obtain ⟨-, -, e2, e3, -⟩ := idx_facts t
  show V m c main_v3 (((cfg0.win 1).blk t).view.emb (ix2 a b)) = V m c main_v3 (ix2 a b)
  refine congrArg (V m c main_v3) ?_
  funext d; apply Fin.ext
  match d with
  | ⟨0, _⟩ => show win0_1.index t (0 : Fin 2) * 784 + 1 * a.val = a.val; omega
  | ⟨1, _⟩ => show win0_1.index t (1 : Fin 2) * 256 + 1 * b.val = b.val; omega

theorem oblk_apply (c : Dev nD) (t : Fin cfg0.N) (a : Fin 264) (b : Fin 16) :
    oblk m c t (ix2 a b) = pO m c (ix2 a b) := by
  obtain ⟨-, -, -, -, e4, e5, -⟩ := idx_facts t
  show V m c main_v6 (((cfg0.win 2).blk t).view.emb (ix2 a b)) = V m c main_v6 (ix2 a b)
  refine congrArg (V m c main_v6) ?_
  funext d; apply Fin.ext
  match d with
  | ⟨0, _⟩ => show win0_2.index t (0 : Fin 2) * 264 + 1 * a.val = a.val; omega
  | ⟨1, _⟩ => show win0_2.index t (1 : Fin 2) * 16 + 1 * b.val = b.val; omega

theorem xblk_apply (c : Dev nD) (t : Fin cfg0.N) (r : Fin 4096) (i : Fin 16384) (hi : i.val = t.val * 4096 + r.val) (l : Fin 512) :
    xblk m c t (ix2 r l) = aX m c (ix2 i l) := by
  obtain ⟨e0, e1, -⟩ := idx_facts t
  show V m c main_arg0 (((cfg0.win 0).blk t).view.emb (ix2 r l)) = _
  rw [V_main_arg0]
  refine congrArg (m ((c : Thread nD τ).loc main_arg0)) ?_
  funext d; apply Fin.ext
  match d with
  | ⟨0, _⟩ => show win0_0.index t (0 : Fin 2) * 4096 + 1 * r.val = i.val; omega
  | ⟨1, _⟩ => show win0_0.index t (1 : Fin 2) * 512 + 1 * l.val = l.val; omega

/-! ## A point's block is the result array's rows -/

theorem block_apply (c : Dev nD) (t : Fin cfg0.N) (r : Fin 4096) (o : Fin 16) (i : Fin 16384) (hi : i.val = t.val * 4096 + r.val) :
    outBlock (F := Ideal) (xblk m c t) (foldedW (F := Ideal) (wblk m c t0_0)) (foldedB (F := Ideal) (wblk m c t0_0)) (oblk m c t) (ix2 r o) = outArr m c (ix2 i o) := by
  rw [BlockEntry.outBlock_apply, outArr_apply]
  unfold MlpSpec.logits MlpSpec.hiddenKer MlpSpec.foldedW MlpSpec.foldedB
  simp only [xblk_apply m c t r i hi, wblk_apply, oblk_apply, pW_Wp, pW_W1, pW_bp, pW_b1, pO_W2, pO_b2]

/-- The result array read through point `t`'s block of the output window. -/
theorem read_blk3 (G : FVec Ideal S16384x16 .f32) (t : Fin cfg0.N) (y : S4096x16.Idx) (i : Fin 16384) (hi : i.val = t.val * 4096 + (y 0).val) :
    ((cfg0.win 3).blk t).view.read (Elt Ideal) G y = G (ix2 i (⟨(y 1).val, idx2_lt1 y⟩ : Fin 16)) := by
  obtain ⟨-, -, -, -, -, -, e6, e7⟩ := idx_facts t
  show G (((cfg0.win 3).blk t).view.emb y) = _
  refine congrArg G ?_
  funext d; apply Fin.ext
  match d with
  | ⟨0, _⟩ => show win0_3.index t (0 : Fin 2) * 4096 + 1 * (y 0).val = i.val; omega
  | ⟨1, _⟩ => show win0_3.index t (1 : Fin 2) * 16 + 1 * (y 1).val = (y 1).val; omega

theorem blockFn_eq (c : Dev nD) (t : Fin cfg0.N) :
    outBlock (F := Ideal) (xblk m c t) (foldedW (F := Ideal) (wblk m c t0_0)) (foldedB (F := Ideal) (wblk m c t0_0)) (oblk m c t)
      = fun y : S4096x16.Idx => ((cfg0.win 3).blk t).view.read (Elt Ideal) (outArr m c) y := by
  funext y
  obtain ⟨r, o, rfl⟩ : ∃ (r : Fin 4096) (o : Fin 16), y = ix2 r o := ⟨y 0, y 1, eq_ix2 y⟩
  have hN : t.val < 4 := lt_of_lt_of_eq t.isLt (show cfg0.N = 4 from N_0)
  have hr : r.val < 4096 := r.isLt
  rw [read_blk3 (outArr m c) t (ix2 r o) ⟨t.val * 4096 + r.val, by omega⟩ rfl]
  exact block_apply m c t r o _ rfl

/-- What point `t` writes back is block `t` of the result array. -/
theorem flushed3_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after3_eq, blockFn_eq]

/-! ## The four blocks tile the result -/

theorem mem_blk3 (t : Fin cfg0.N) (i : S16384x16.Idx) :
    i ∈ ((cfg0.win 3).blk t).view.set ↔ ∀ a : Fin 2, win0_3.index t a * S4096x16.size a ≤ (i a).val ∧ (i a).val < win0_3.index t a * S4096x16.size a + S4096x16.size a := by
  show i ∈ ((View.whole main_v7).slice (win0_3.rect t)).set ↔ _
  rw [View.set_slice_whole, Rect.mem_set_unit]
  exact Iff.rfl

theorem cover3 (i : S16384x16.Idx) : ∃ t : Fin cfg0.N, (cfg0.win 3).flush t = true ∧ i ∈ ((cfg0.win 3).blk t).view.set := by
  have hi0 : (i 0).val < 16384 := idx2_lt0 i
  have hi1 : (i 1).val < 16 := idx2_lt1 i
  have hN : cfg0.N = 4 := N_0
  let t : Fin cfg0.N := ⟨(i 0).val / 4096, by rw [hN]; omega⟩
  obtain ⟨-, -, -, -, -, -, e6, e7⟩ := idx_facts t
  have e6' : win0_3.index t (0 : Fin 2) = (i 0).val / 4096 := e6
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 16 ≤ (i 1).val ∧ (i 1).val < win0_3.index t (1 : Fin 2) * 16 + 16; omega

/-- The result array after the run. -/
theorem final3 (c : Dev nD) : (dats m 0 c).arrAt 3 cfg0.N = outArr m c :=
  (dats m 0 c).arrAt_eq_of_cover 3 (outArr m c) (fun t _ => flushed3_eq m c t) cover3

/-! ## The run, read -/

/-- Every weakly fair execution of the idealized kernel's program terminates with the result array at `outArr` and the
    seven arguments as launched. -/
theorem run : θ_run defs (onTc (τ := τ) (main (F := Ideal))) ⟨m, fun _ => 0, ρ⟩ fun r => ∀ c : Dev nD,
      r.2.mem ((c.tc : Thread nD τ).loc main_v7) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.KerValue

end
-- ==== Proof.RefValue.lean ====
/-
  The reference's result, entry by entry: three affine layers with a clamp at zero before the last one.
  Each host matrix product read at an entry is the textbook sum over the contracted axis; each offset is a vector
  repeated along the rows; the clamp is the maximum with the zero word.
-/
import proofs.«170034_g50646254354566_cont_8to1c4_339_31_alg».proof.Proof.Gen.ReferenceIdeal.Run
import proofs.«170034_g50646254354566_cont_8to1c4_339_31_alg».proof.Proof.Gen.ReferenceIdeal.Read
import proofs.«170034_g50646254354566_cont_8to1c4_339_31_alg».proof.Proof.MlpSpec
import proofs.«170034_g50646254354566_cont_8to1c4_339_31_alg».proof.Proof.LibPlainDot
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx Cert.MlpSpec
open scoped BigOperators

/-- The reference's result as one term of its seven argument arrays (the composed term of its host operations). -/
def refTerm (x : FVec Ideal S16384x512 .f32) (Wp : FVec Ideal S512x256 .f32) (bp : FVec Ideal S256 .f32)
    (W1 : FVec Ideal S256x256 .f32) (b1 : FVec Ideal S256 .f32) (W2 : FVec Ideal S256x16 .f32) (b2 : FVec Ideal S16 .f32) :
    FVec Ideal S16384x16 .f32 :=
  addf (Host.dotGeneral dot_S16384x256_S256x16_S16384x16_1_0_0_1_n_n none (maximumf (addf (Host.dotGeneral dot_S16384x256_S256x256_S16384x256_1_0_0_1_n_n none (addf (Host.dotGeneral dot_S16384x512_S512x256_S16384x256_1_0_0_1_n_n none x Wp) (broadcastInDim S16384x256 ![0, 1] bcast_S1x256_S16384x256_0_1 (broadcastInDim S1x256 ![1] bcast_S256_S1x256_1 bp))) W1) (broadcastInDim S16384x256 ![0, 1] bcast_S1x256_S16384x256_0_1 (broadcastInDim S1x256 ![1] bcast_S256_S1x256_1 b1))) (broadcastInDim S16384x256 ![] bcast_S_S16384x256 (constant (F := Ideal) S_ .f32 0x00000000#32))) W2) (broadcastInDim S16384x16 ![0, 1] bcast_S1x16_S16384x16_0_1 (broadcastInDim S1x16 ![1] bcast_S16_S1x16_1 b2))

/-- A host matrix product with the plain dimension numbers, read at the entry (p, q): the sum over the contracted
    axis of the left entry (p, k) times the right entry (k, q). -/
theorem hostDot_apply {M K N : Nat}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : FVec Ideal (⟨2, ![M, K]⟩ : Shape) .f32) (r : FVec Ideal (⟨2, ![K, N]⟩ : Shape) .f32) (p : Fin M) (q : Fin N) :
    Host.dotGeneral D none l r (ix2 p q) = ∑ k : Fin K, l (ix2 p k) * r (ix2 k q) := by
  simp only [Host.dotGeneral]
  exact PlainDot.dotGeneral_apply D h1 h2 h3 h4 h5 h6 _ _ l r p q

/-- A vector of 256 entries made a single row and repeated along the 16384 rows reads, at (i, j), the vector at j. -/
theorem rowOffset256_apply (b : FVec Ideal S256 .f32) (i : Fin 16384) (j : Fin 256) :
    broadcastInDim S16384x256 ![0, 1] bcast_S1x256_S16384x256_0_1 (broadcastInDim S1x256 ![1] bcast_S256_S1x256_1 b) (ix2 i j)
      = b (ix1 j) := by
  refine (Read.val_main_v2_apply (F := Ideal) b (ix2 i j)).trans ?_
  refine (Read.val_main_v1_apply (F := Ideal) b _).trans ?_
  exact congrArg b (funext fun a => Fin.ext (by match a with | ⟨0, _⟩ => rfl))

/-- A vector of 16 entries made a single row and repeated along the 16384 rows reads, at (i, o), the vector at o. -/
theorem rowOffset16_apply (b : FVec Ideal S16 .f32) (i : Fin 16384) (o : Fin 16) :
    broadcastInDim S16384x16 ![0, 1] bcast_S1x16_S16384x16_0_1 (broadcastInDim S1x16 ![1] bcast_S16_S1x16_1 b) (ix2 i o)
      = b (ix1 o) := by
  refine (Read.val_main_v11_apply (F := Ideal) b (ix2 i o)).trans ?_
  refine (Read.val_main_v10_apply (F := Ideal) b _).trans ?_
  exact congrArg b (funext fun a => Fin.ext (by match a with | ⟨0, _⟩ => rfl))

/-- The zero word repeated over the whole [16384, 256] array reads, at every entry, the value of the zero word. -/
theorem zeroFill_apply (j : S16384x256.Idx) :
    broadcastInDim S16384x256 ![] bcast_S_S16384x256 (constant (F := Ideal) S_ .f32 0x00000000#32) j
      = Ideal.ofBits .f32 0x00000000#32 :=
  (Read.val_main_call0_v0_apply (F := Ideal) j).trans rfl

/-- The first layer's array at the entry (i, j) is `x · Wp + bp` there. -/
theorem layer1_apply (x : FVec Ideal S16384x512 .f32) (Wp : FVec Ideal S512x256 .f32) (bp : FVec Ideal S256 .f32)
    (i : Fin 16384) (j : Fin 256) :
    addf (Host.dotGeneral dot_S16384x512_S512x256_S16384x256_1_0_0_1_n_n none x Wp)
        (broadcastInDim S16384x256 ![0, 1] bcast_S1x256_S16384x256_0_1 (broadcastInDim S1x256 ![1] bcast_S256_S1x256_1 bp)) (ix2 i j)
      = proj x Wp bp i j := by
  rw [addf_apply, hostDot_apply dot_S16384x512_S512x256_S16384x256_1_0_0_1_n_n rfl rfl rfl rfl rfl rfl, rowOffset256_apply]
  rfl

/-- The second layer's array at the entry (i, k) is the hidden activation before the clamp. -/
theorem layer2_apply (x : FVec Ideal S16384x512 .f32) (Wp : FVec Ideal S512x256 .f32) (bp : FVec Ideal S256 .f32)
    (W1 : FVec Ideal S256x256 .f32) (b1 : FVec Ideal S256 .f32) (i : Fin 16384) (k : Fin 256) :
    addf (Host.dotGeneral dot_S16384x256_S256x256_S16384x256_1_0_0_1_n_n none
          (addf (Host.dotGeneral dot_S16384x512_S512x256_S16384x256_1_0_0_1_n_n none x Wp)
            (broadcastInDim S16384x256 ![0, 1] bcast_S1x256_S16384x256_0_1 (broadcastInDim S1x256 ![1] bcast_S256_S1x256_1 bp))) W1)
        (broadcastInDim S16384x256 ![0, 1] bcast_S1x256_S16384x256_0_1 (broadcastInDim S1x256 ![1] bcast_S256_S1x256_1 b1)) (ix2 i k)
      = hiddenRef x Wp bp W1 b1 i k := by
  rw [addf_apply, hostDot_apply dot_S16384x256_S256x256_S16384x256_1_0_0_1_n_n rfl rfl rfl rfl rfl rfl, rowOffset256_apply]
  unfold hiddenRef
  refine congrArg (· + b1 (ix1 k)) ?_
  refine Finset.sum_congr rfl fun j _ => ?_
  rw [layer1_apply]

/-- At the entry (i, o) the reference's result is the last layer applied to the clamped two-layer hidden activation. -/
theorem refTerm_apply (x : FVec Ideal S16384x512 .f32) (Wp : FVec Ideal S512x256 .f32) (bp : FVec Ideal S256 .f32)
    (W1 : FVec Ideal S256x256 .f32) (b1 : FVec Ideal S256 .f32) (W2 : FVec Ideal S256x16 .f32) (b2 : FVec Ideal S16 .f32)
    (i : Fin 16384) (o : Fin 16) :
    refTerm x Wp bp W1 b1 W2 b2 (ix2 i o) = logits (hiddenRef x Wp bp W1 b1) W2 b2 i o := by
  unfold refTerm logits
  rw [addf_apply, hostDot_apply dot_S16384x256_S256x16_S16384x16_1_0_0_1_n_n rfl rfl rfl rfl rfl rfl, rowOffset16_apply]
  refine congrArg (· + b2 (ix1 o)) ?_
  refine Finset.sum_congr rfl fun k _ => ?_
  rw [maximumf_apply, layer2_apply, zeroFill_apply]

end Cert.ReferenceIdeal.RefValue

end
-- ==== Proof.FiniteInputs.lean ====
/-
  What the precondition gives: the printed predicate is an and of seven "every |entry| is below +inf" tests, one per
  input array; when it evaluates to the one-bit word 1, every entry of every input is a real number.
-/
import proofs.«170034_g50646254354566_cont_8to1c4_339_31_alg».proof.Pre_finite_inputs
import proofs.«170034_g50646254354566_cont_8to1c4_339_31_alg».proof.Proof.Gen.Pre_finite_inputs
import proofs.«170034_g50646254354566_cont_8to1c4_339_31_alg».proof.Proof.MlpSpec
import Idealize.ShloMosaic.Lib.ReduceAll

noncomputable section

namespace Cert.FiniteInputs

open Idealize.ShloMosaic Idealize.ShloMosaic.ValueIdx Cert.MlpSpec

/-- A rank-0 shape has exactly one index. -/
instance : Subsingleton Cert.Pre_finite_inputs.S_.Idx := ⟨fun a b => funext fun d => d.elim0⟩

/-- The f32 word 0x7F800000 reads as +∞. -/
theorem inf_word : Ideal.ofBits .f32 0x7F800000#32 = (⊤ : EReal) := by simp [Ideal.ofBits, Ideal.ieee]

/-- An extended real whose absolute value max x (-x) is below +∞ is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- If the test |entry| < +∞ answers 1 at every index, every entry is a real number. -/
theorem isReal_of_lt_inf {s : Shape} (hb : Cert.Pre_finite_inputs.S_.BroadcastsInDim s (![] : Fin 0 → Fin s.rank))
    (a : FVec Ideal s .f32)
    (h : ∀ i, cmpf .olt (Host.absf a)
      (broadcastInDim s ![] hb (constant Cert.Pre_finite_inputs.S_ .f32 0x7F800000#32)) i = 1#1) : IsReal a := by
  intro i
  have hi := h i
  change Ideal.cmp .olt (max (a i : EReal) (-(a i : EReal))) (Ideal.ofBits .f32 0x7F800000#32) = 1#1 at hi
  rw [inf_word] at hi
  refine real_of_abs_lt_top (a i) ?_
  by_contra hn
  simp [Ideal.cmp, hn] at hi

/-- An and of two one-bit arrays that is 1 at an index has both operands 1 there. -/
theorem andi_apply_eq_one {s : Shape} (x y : IVec s 1) (i : s.Idx) (h : andi x y i = 1#1) : x i = 1#1 ∧ y i = 1#1 :=
  IntOp.andi_eq_one.1 h

/-- If the printed finiteness predicate is all ones, every entry of every one of the seven inputs is real. -/
theorem real_of_fn [Cert.Pre_finite_inputs.Facts]
    (a0 : FVec Ideal Cert.Pre_finite_inputs.S16384x512 .f32) (a1 : FVec Ideal Cert.Pre_finite_inputs.S512x256 .f32)
    (a2 : FVec Ideal Cert.Pre_finite_inputs.S256 .f32) (a3 : FVec Ideal Cert.Pre_finite_inputs.S256x256 .f32)
    (a4 : FVec Ideal Cert.Pre_finite_inputs.S256 .f32) (a5 : FVec Ideal Cert.Pre_finite_inputs.S256x16 .f32)
    (a6 : FVec Ideal Cert.Pre_finite_inputs.S16 .f32)
    (h : Cert.Pre_finite_inputs.fn (F := Ideal) a0 a1 a2 a3 a4 a5 a6 = fun _ => 1#1) :
    IsReal a0 ∧ IsReal a1 ∧ IsReal a2 ∧ IsReal a3 ∧ IsReal a4 ∧ IsReal a5 ∧ IsReal a6 := by
  have h0 := congrFun h ValueIdx.ix0
  dsimp only [Cert.Pre_finite_inputs.fn, Cert.Pre_finite_inputs.fn_part1] at h0
  obtain ⟨h0, e6⟩ := andi_apply_eq_one _ _ _ h0
  obtain ⟨h0, e5⟩ := andi_apply_eq_one _ _ _ h0
  obtain ⟨h0, e4⟩ := andi_apply_eq_one _ _ _ h0
  obtain ⟨h0, e3⟩ := andi_apply_eq_one _ _ _ h0
  obtain ⟨h0, e2⟩ := andi_apply_eq_one _ _ _ h0
  obtain ⟨e0, e1⟩ := andi_apply_eq_one _ _ _ h0
  exact ⟨isReal_of_lt_inf _ a0 (Host.reduce_andi_all _ _ _ _ _ e0),
    isReal_of_lt_inf _ a1 (Host.reduce_andi_all _ _ _ _ _ e1),
    isReal_of_lt_inf _ a2 (Host.reduce_andi_all _ _ _ _ _ e2),
    isReal_of_lt_inf _ a3 (Host.reduce_andi_all _ _ _ _ _ e3),
    isReal_of_lt_inf _ a4 (Host.reduce_andi_all _ _ _ _ _ e4),
    isReal_of_lt_inf _ a5 (Host.reduce_andi_all _ _ _ _ _ e5),
    isReal_of_lt_inf _ a6 (Host.reduce_andi_all _ _ _ _ _ e6)⟩

end Cert.FiniteInputs

end
-- ==== Proof.lean ====
/-
  The certificate: the kernel computes relu(x · (Wp · W1) + (bp · W1 + b1)) · W2 + b2 with the first two layers folded
  into one, the reference relu((x · Wp + bp) · W1 + b1) · W2 + b2 layer by layer.

  The three frames: each kernel program (read at machine words and at the extended reals) runs its packing lines, then its
  one pipelined call over four row blocks, carrying the folded matrix and offset in two scratch buffers from the first
  grid point on; the reference is a straight line of host operations.  Nothing was rewritten between the kernel and its
  idealization.  Over the extended reals, for real (finite) inputs, the kernel's result is the last layer applied to the
  clamped folded layer and the reference's is the last layer applied to the clamped two-layer activation; the two hidden
  activations agree by associativity of the matrix product and distributivity over the first offset, which is where
  finiteness is used.
-/
import proofs.«170034_g50646254354566_cont_8to1c4_339_31_alg».proof.Defs
import proofs.«170034_g50646254354566_cont_8to1c4_339_31_alg».proof.Proof.Gen.Kernel
import proofs.«170034_g50646254354566_cont_8to1c4_339_31_alg».proof.Proof.Gen.KernelIdeal
import proofs.«170034_g50646254354566_cont_8to1c4_339_31_alg».proof.Proof.Gen.ReferenceIdeal
import proofs.«170034_g50646254354566_cont_8to1c4_339_31_alg».proof.Proof.Gen.Pre_finite_inputs
import proofs.«170034_g50646254354566_cont_8to1c4_339_31_alg».proof.Proof.Gen.ReferenceIdeal.Run
import proofs.«170034_g50646254354566_cont_8to1c4_339_31_alg».proof.Proof.Gen.ReferenceIdeal.Read
import proofs.«170034_g50646254354566_cont_8to1c4_339_31_alg».proof.Proof.BitsFrame
import proofs.«170034_g50646254354566_cont_8to1c4_339_31_alg».proof.Proof.IdealFrame
import proofs.«170034_g50646254354566_cont_8to1c4_339_31_alg».proof.Proof.IdealValue
import proofs.«170034_g50646254354566_cont_8to1c4_339_31_alg».proof.Proof.RefValue
import proofs.«170034_g50646254354566_cont_8to1c4_339_31_alg».proof.Proof.FiniteInputs
import proofs.«170034_g50646254354566_cont_8to1c4_339_31_alg».proof.Proof.MlpSpec
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- For real inputs the kernel's result array is the reference's result term of the same arrays, entry by entry. -/
theorem result_eq (x : FVec Ideal Cert.ReferenceIdeal.S16384x512 .f32) (Wp : FVec Ideal Cert.ReferenceIdeal.S512x256 .f32)
    (bp : FVec Ideal Cert.ReferenceIdeal.S256 .f32) (W1 : FVec Ideal Cert.ReferenceIdeal.S256x256 .f32) (b1 : FVec Ideal Cert.ReferenceIdeal.S256 .f32)
    (W2 : FVec Ideal Cert.ReferenceIdeal.S256x16 .f32) (b2 : FVec Ideal Cert.ReferenceIdeal.S16 .f32)
    (hx : Cert.MlpSpec.IsReal x) (hWp : Cert.MlpSpec.IsReal Wp) (hbp : Cert.MlpSpec.IsReal bp) (hW1 : Cert.MlpSpec.IsReal W1) (hb1 : Cert.MlpSpec.IsReal b1) :
    Cert.ReferenceIdeal.RefValue.refTerm x Wp bp W1 b1 W2 b2
      = fun j => Cert.MlpSpec.logits (Cert.MlpSpec.hiddenKer x Wp bp W1 b1) W2 b2 ⟨(j 0).val, idx2_lt0 j⟩ ⟨(j 1).val, idx2_lt1 j⟩ := by
  funext j
  obtain ⟨i, o, rfl⟩ : ∃ (i : Fin 16384) (o : Fin 16), j = ix2 i o := ⟨j 0, j 1, eq_ix2 j⟩
  rw [Cert.ReferenceIdeal.RefValue.refTerm_apply]
  show Cert.MlpSpec.logits (Cert.MlpSpec.hiddenRef x Wp bp W1 b1) W2 b2 i o = Cert.MlpSpec.logits (Cert.MlpSpec.hiddenKer x Wp bp W1 b1) W2 b2 i o
  unfold Cert.MlpSpec.logits
  simp only [Cert.MlpSpec.hiddenKer_eq_hiddenRef x Wp bp W1 b1 hx hWp hbp hW1 hb1]

theorem algebraic : Cert.algebraic_KernelIdeal_ReferenceIdeal := by
  intro m ρ m' ρ' hpre hagree
  refine ⟨fun c => Cert.KernelIdeal.KerValue.outArr m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.FiniteInputs.real_of_fn _ _ _ _ _ _ _ (hpre c)
  rw [(hagree c).1, (hagree c).2.1, (hagree c).2.2.1, (hagree c).2.2.2.1, (hagree c).2.2.2.2.1, (hagree c).2.2.2.2.2.1, (hagree c).2.2.2.2.2.2]
  exact result_eq _ _ _ _ _ _ _ h0 h1 h2 h3 h4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
